-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S2x8388608 : Shape := ⟨2, ![2, 8388608]⟩
abbrev S8388608 : Shape := ⟨1, ![8388608]⟩
abbrev S4x4 : Shape := ⟨2, ![4, 4]⟩
abbrev S_ : Shape := ⟨0, ![]⟩

class Facts : Prop where
  bcast_S_S8388608 : S_.BroadcastsInDim S8388608 (![] : Fin 0 → Fin S8388608.rank)
  reducesTo_S8388608_S_d0 : S8388608.ReducesTo [0] S_
  h_S_ : 0 < S_.numel
  bcast_S_S4x4 : S_.BroadcastsInDim S4x4 (![] : Fin 0 → Fin S4x4.rank)
  reducesTo_S4x4_S_d0_1 : S4x4.ReducesTo [0, 1] S_
  bcast_S_S2048x64 : S_.BroadcastsInDim S2048x64 (![] : Fin 0 → Fin S2048x64.rank)
  reducesTo_S2048x64_S_d0_1 : S2048x64.ReducesTo [0, 1] S_
  bcast_S_S2x8388608 : S_.BroadcastsInDim S2x8388608 (![] : Fin 0 → Fin S2x8388608.rank)
  reducesTo_S2x8388608_S_d0_1 : S2x8388608.ReducesTo [0, 1] S_

variable [Facts]

def fn_part2 {F : FTy → Type} [FloatOps F] (main_v30 : IVec S_ 1) (main_v32 : IVec S2x8388608 1) : IVec S_ 1 :=
  let main_c_13 : IVec S_ 1 := constantI S_ 1 1#1
  let main_v33 : IVec S_ 1 := (fun x v => Host.reduce IntOp.andi x v reducesTo_S2x8388608_S_d0_1 h_S_) main_v32 main_c_13
  let main_v34 : IVec S_ 1 := andi main_v30 main_v33
  main_v34

def fn_part1 {F : FTy → Type} [FloatOps F] (main_arg0 : IVec S2048x64 32) (main_arg1 : IVec S2x8388608 32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_c_6 : IVec S_ 32 := constantI S_ 32 0#32
  let main_v19 : IVec S2048x64 32 := broadcastInDim S2048x64 ![] bcast_S_S2048x64 main_c_6
  let main_v20 : IVec S2048x64 1 := cmpi .sge main_arg0 main_v19
  let main_c_7 : IVec S_ 1 := constantI S_ 1 1#1
  let main_v21 : IVec S_ 1 := (fun x v => Host.reduce IntOp.andi x v reducesTo_S2048x64_S_d0_1 h_S_) main_v20 main_c_7
  let main_v22 : IVec S_ 1 := andi main_v18 main_v21
  let main_c_8 : IVec S_ 32 := constantI S_ 32 4#32
  let main_v23 : IVec S2048x64 32 := broadcastInDim S2048x64 ![] bcast_S_S2048x64 main_c_8
  let main_v24 : IVec S2048x64 1 := cmpi .slt main_arg0 main_v23
  let main_c_9 : IVec S_ 1 := constantI S_ 1 1#1
  let main_v25 : IVec S_ 1 := (fun x v => Host.reduce IntOp.andi x v reducesTo_S2048x64_S_d0_1 h_S_) main_v24 main_c_9
  let main_v26 : IVec S_ 1 := andi main_v22 main_v25
  let main_c_10 : IVec S_ 32 := constantI S_ 32 0#32
  let main_v27 : IVec S2x8388608 32 := broadcastInDim S2x8388608 ![] bcast_S_S2x8388608 main_c_10
  let main_v28 : IVec S2x8388608 1 := cmpi .sge main_arg1 main_v27
  let main_c_11 : IVec S_ 1 := constantI S_ 1 1#1
  let main_v29 : IVec S_ 1 := (fun x v => Host.reduce IntOp.andi x v reducesTo_S2x8388608_S_d0_1 h_S_) main_v28 main_c_11
  let main_v30 : IVec S_ 1 := andi main_v26 main_v29
  let main_c_12 : IVec S_ 32 := constantI S_ 32 131072#32
  let main_v31 : IVec S2x8388608 32 := broadcastInDim S2x8388608 ![] bcast_S_S2x8388608 main_c_12
  let main_v32 : IVec S2x8388608 1 := cmpi .slt main_arg1 main_v31
  fn_part2 (F := F) main_v30 main_v32

def fn {F : FTy → Type} [FloatOps F] (main_arg0 : IVec S2048x64 32) (main_arg1 : IVec S2x8388608 32) (main_arg2 : FVec F S8388608 .f32) (main_arg3 : FVec F S4x4 .f32) (main_arg4 : FVec F S4x4 .f32) (main_arg5 : FVec F S4x4 .f32) : IVec S_ 1 :=
  let main_v0 : FVec F S8388608 .f32 := Host.absf main_arg2
  let main_cst : FVec F S_ .f32 := constant S_ .f32 0x7F800000#32
  let main_v1 : FVec F S8388608 .f32 := broadcastInDim S8388608 ![] bcast_S_S8388608 main_cst
  let main_v2 : IVec S8388608 1 := cmpf .olt main_v0 main_v1
  let main_c : IVec S_ 1 := constantI S_ 1 1#1
  let main_v3 : IVec S_ 1 := (fun x v => Host.reduce IntOp.andi x v reducesTo_S8388608_S_d0 h_S_) main_v2 main_c
  let main_v4 : FVec F S4x4 .f32 := Host.absf main_arg3
  let main_cst_0 : FVec F S_ .f32 := constant S_ .f32 0x7F800000#32
  let main_v5 : FVec F S4x4 .f32 := broadcastInDim S4x4 ![] bcast_S_S4x4 main_cst_0
  let main_v6 : IVec S4x4 1 := cmpf .olt main_v4 main_v5
  let main_c_1 : IVec S_ 1 := constantI S_ 1 1#1
  let main_v7 : IVec S_ 1 := (fun x v => Host.reduce IntOp.andi x v reducesTo_S4x4_S_d0_1 h_S_) main_v6 main_c_1
  let main_v8 : IVec S_ 1 := andi main_v3 main_v7
  let main_v9 : FVec F S4x4 .f32 := Host.absf main_arg4
  let main_cst_2 : FVec F S_ .f32 := constant S_ .f32 0x7F800000#32
  let main_v10 : FVec F S4x4 .f32 := broadcastInDim S4x4 ![] bcast_S_S4x4 main_cst_2
  let main_v11 : IVec S4x4 1 := cmpf .olt main_v9 main_v10
  let main_c_3 : IVec S_ 1 := constantI S_ 1 1#1
  let main_v12 : IVec S_ 1 := (fun x v => Host.reduce IntOp.andi x v reducesTo_S4x4_S_d0_1 h_S_) main_v11 main_c_3
  let main_v13 : IVec S_ 1 := andi main_v8 main_v12
  let main_v14 : FVec F S4x4 .f32 := Host.absf main_arg5
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg0 main_arg1 main_v13 main_v16
-- ==== Kernel.lean ====
abbrev S2048x64 : Shape := ⟨2, ![2048, 64]⟩
abbrev S2x8388608 : Shape := ⟨2, ![2, 8388608]⟩
abbrev S8388608 : Shape := ⟨1, ![8388608]⟩
abbrev S4x4 : Shape := ⟨2, ![4, 4]⟩
abbrev S131072 : Shape := ⟨1, ![131072]⟩
abbrev S1x8388608 : Shape := ⟨2, ![1, 8388608]⟩
abbrev S_ : Shape := ⟨0, ![]⟩
abbrev S8388608x1 : Shape := ⟨2, ![8388608, 1]⟩
abbrev S1 : Shape := ⟨1, ![1]⟩
abbrev S1x1 : Shape := ⟨2, ![1, 1]⟩
abbrev S1x16 : Shape := ⟨2, ![1, 16]⟩
abbrev S1x262144 : Shape := ⟨2, ![1, 262144]⟩
abbrev S2048 : Shape := ⟨1, ![2048]⟩

abbrev nBuf : Space → Nat
  | .hbm => 73
  | .vmem => 13
  | .smem => 0
  | _ => 0

abbrev bufTy : (tb : Table) → Fin (tcTables nBuf tb) → BufTy
  | .hbm, ⟨0, _⟩ => ⟨S2048x64, .i32⟩
  | .hbm, ⟨1, _⟩ => ⟨S2x8388608, .i32⟩
  | .hbm, ⟨2, _⟩ => ⟨S8388608, .f32⟩
  | .hbm, ⟨3, _⟩ => ⟨S4x4, .f32⟩
  | .hbm, ⟨4, _⟩ => ⟨S4x4, .f32⟩
  | .hbm, ⟨5, _⟩ => ⟨S4x4, .f32⟩
  | .hbm, ⟨6, _⟩ => ⟨S131072, .i32⟩
  | .hbm, ⟨7, _⟩ => ⟨S1x8388608, .i32⟩
  | .hbm, ⟨8, _⟩ => ⟨S8388608, .i32⟩
  | .hbm, ⟨9, _⟩ => ⟨S1x8388608, .i32⟩
  | .hbm, ⟨10, _⟩ => ⟨S8388608, .i32⟩
  | .hbm, ⟨11, _⟩ => ⟨S_, .i32⟩
  | .hbm, ⟨12, _⟩ => ⟨S8388608, .i32⟩
  | .hbm, ⟨13, _⟩ => ⟨S8388608, .i1⟩
  | .hbm, ⟨14, _⟩ => ⟨S_, .i32⟩
  | .hbm, ⟨15, _⟩ => ⟨S8388608, .i32⟩
  | .hbm, ⟨16, _⟩ => ⟨S8388608, .i32⟩
  | .hbm, ⟨17, _⟩ => ⟨S8388608, .i32⟩
  | .hbm, ⟨18, _⟩ => ⟨S8388608x1, .i32⟩
  | .hbm, ⟨19, _⟩ => ⟨S1, .i32⟩
  | .hbm, ⟨20, _⟩ => ⟨S_, .i32⟩
  | .hbm, ⟨21, _⟩ => ⟨S8388608x1, .i32⟩
  | .hbm, ⟨22, _⟩ => ⟨S8388608x1, .i1⟩
  | .hbm, ⟨23, _⟩ => ⟨S1x1, .i32⟩
  | .hbm, ⟨24, _⟩ => ⟨S8388608x1, .i32⟩
  | .hbm, ⟨25, _⟩ => ⟨S8388608x1, .i1⟩
  | .hbm, ⟨26, _⟩ => ⟨S8388608x1, .i1⟩
  | .hbm, ⟨27, _⟩ => ⟨S_, .i1⟩
  | .hbm, ⟨28, _⟩ => ⟨S8388608, .i1⟩
  | .hbm, ⟨29, _⟩ => ⟨S8388608, .i32⟩
  | .hbm, ⟨30, _⟩ => ⟨S_, .i32⟩
  | .hbm, ⟨31, _⟩ => ⟨S8388608, .i32⟩
  | .hbm, ⟨32, _⟩ => ⟨S8388608, .i32⟩
  | .hbm, ⟨33, _⟩ => ⟨S_, .i32⟩
  | .hbm, ⟨34, _⟩ => ⟨S8388608, .i32⟩
  | .hbm, ⟨35, _⟩ => ⟨S8388608, .i1⟩
  | .hbm, ⟨36, _⟩ => ⟨S_, .i32⟩
  | .hbm, ⟨37, _⟩ => ⟨S8388608, .i32⟩
  | .hbm, ⟨38, _⟩ => ⟨S8388608, .i32⟩
  | .hbm, ⟨39, _⟩ => ⟨S8388608, .i32⟩
  | .hbm, ⟨40, _⟩ => ⟨S8388608x1, .i32⟩
  | .hbm, ⟨41, _⟩ => ⟨S1, .i32⟩
  | .hbm, ⟨42, _⟩ => ⟨S_, .i32⟩
  | .hbm, ⟨43, _⟩ => ⟨S8388608x1, .i32⟩
  | .hbm, ⟨44, _⟩ => ⟨S8388608x1, .i1⟩
  | .hbm, ⟨45, _⟩ => ⟨S1x1, .i32⟩
  | .hbm, ⟨46, _⟩ => ⟨S8388608x1, .i32⟩
  | .hbm, ⟨47, _⟩ => ⟨S8388608x1, .i1⟩
  | .hbm, ⟨48, _⟩ => ⟨S8388608x1, .i1⟩
  | .hbm, ⟨49, _⟩ => ⟨S_, .i1⟩
  | .hbm, ⟨50, _⟩ => ⟨S8388608, .i1⟩
  | .hbm, ⟨51, _⟩ => ⟨S8388608, .i32⟩
  | .hbm, ⟨52, _⟩ => ⟨S_, .i32⟩
  | .hbm, ⟨53, _⟩ => ⟨S8388608, .i32⟩
  | .hbm, ⟨54, _⟩ => ⟨S8388608, .i32⟩
  | .hbm, ⟨55, _⟩ => ⟨S_, .i32⟩
  | .hbm, ⟨56, _⟩ => ⟨S8388608, .i32⟩
  | .hbm, ⟨57, _⟩ => ⟨S8388608, .i32⟩
  | .hbm, ⟨58, _⟩ => ⟨S8388608, .i32⟩
  | .hbm, ⟨59, _⟩ => ⟨S1x8388608, .i32⟩
  | .hbm, ⟨60, _⟩ => ⟨S1x8388608, .i32⟩
  | .hbm, ⟨61, _⟩ => ⟨S1x8388608, .f32⟩
  | .hbm, ⟨62, _⟩ => ⟨S1x16, .f32⟩
  | .hbm, ⟨63, _⟩ => ⟨S1x16, .f32⟩
  | .hbm, ⟨64, _⟩ => ⟨S1x16, .f32⟩
  | .hbm, ⟨65, _⟩ => ⟨S1x8388608, .f32⟩
  | .hbm, ⟨66, _⟩ => ⟨S1x8388608, .i32⟩
  | .hbm, ⟨67, _⟩ => ⟨S8388608, .f32⟩
  | .hbm, ⟨68, _⟩ => ⟨S8388608, .i32⟩
  | .hbm, ⟨69, _⟩ => ⟨S_, .f32⟩
  | .hbm, ⟨70, _⟩ => ⟨S2048, .f32⟩
  | .hbm, ⟨71, _⟩ => ⟨S8388608x1, .i32⟩
  | .hbm, ⟨72, _⟩ => ⟨S2048, .f32⟩
  | .local _ .vmem, ⟨0, _⟩ => ⟨S1x262144, .i32⟩
  | .local _ .vmem, ⟨1, _⟩ => ⟨S1x262144, .i32⟩
  | .local _ .vmem, ⟨2, _⟩ => ⟨S1x262144, .i32⟩
  | .local _ .vmem, ⟨3, _⟩ => ⟨S1x262144, .i32⟩
  | .local _ .vmem, ⟨4, _⟩ => ⟨S1x262144, .f32⟩
  | .local _ .vmem, ⟨5, _⟩ => ⟨S1x262144, .f32⟩
  | .local _ .vmem, ⟨6, _⟩ => ⟨S1x16, .f32⟩
  | .local _ .vmem, ⟨7, _⟩ => ⟨S1x16, .f32⟩
  | .local _ .vmem, ⟨8, _⟩ => ⟨S1x16, .f32⟩
  | .local _ .vmem, ⟨9, _⟩ => ⟨S1x262144, .f32⟩
  | .local _ .vmem, ⟨10, _⟩ => ⟨S1x262144, .f32⟩
  | .local _ .vmem, ⟨11, _⟩ => ⟨S1x262144, .i32⟩
  | .local _ .vmem, ⟨12, _⟩ => ⟨S1x262144, .i32⟩
  | _, _ => ⟨S2048x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_c_4 : Ref sig .tc := ⟨.hbm, 30, rfl⟩
abbrev main_call0_v14 : Ref sig .tc := ⟨.hbm, 31, rfl⟩
abbrev main_v5 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_c_4 : Ref sig .tc := ⟨.hbm, 52, rfl⟩
abbrev main_call1_v14 : Ref sig .tc := ⟨.hbm, 53, rfl⟩
abbrev main_v6 : Ref sig .tc := ⟨.hbm, 54, rfl⟩
abbrev main_c : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16_0 : Ref sig .tc := ⟨.hbm, 65, rfl⟩
abbrev main_v16_1 : Ref sig .tc := ⟨.hbm, 66, rfl⟩
abbrev main_v17 : Ref sig .tc := ⟨.hbm, 67, rfl⟩
abbrev main_v18 : Ref sig .tc := ⟨.hbm, 68, rfl⟩
abbrev main_cst : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x262144 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x262144 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x262144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x262144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x262144 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S2048x64_S131072 : S2048x64.ShapeCasts S131072
  slices_S2x8388608_S1x8388608_0_0 : S2x8388608.Slices ![0, 0] S1x8388608
  shapeCasts_S1x8388608_S8388608 : S1x8388608.ShapeCasts S8388608
  slices_S2x8388608_S1x8388608_1_0 : S2x8388608.Slices ![1, 0] S1x8388608
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S_S8388608x1 : S_.BroadcastsInDim S8388608x1 (![] : Fin 0 → Fin S8388608x1.rank)
  bcast_S1_S1x1_1 : S1.BroadcastsInDim S1x1 (![1] : Fin 1 → Fin S1x1.rank)
  bcast_S1x1_S8388608x1_0_1 : S1x1.BroadcastsInDim S8388608x1 (![0, 1] : Fin 2 → Fin S8388608x1.rank)
  reducesTo_S8388608x1_S8388608_d1 : S8388608x1.ReducesTo [1] S8388608
  h_S_ : 0 < S_.numel
  shapeCasts_S8388608_S1x8388608 : S8388608.ShapeCasts S1x8388608
  shapeCasts_S4x4_S1x16 : S4x4.ShapeCasts S1x16
  inb_S1x262144_S1x262144_0_0 : ∀ a, (![0, 0] : Fin 2 → Nat) a + S1x262144.size a ≤ S1x262144.size a
  h_S1x262144 : 0 < S1x262144.numel
  shapeCasts_S1x262144_S1x262144 : S1x262144.ShapeCasts S1x262144
  inb_S1x16_S1x1_0_0 : ∀ a, (![0, 0] : Fin 2 → Nat) a + S1x1.size a ≤ S1x16.size a
  h_S1x1 : 0 < S1x1.numel
  inpos_S1x1_p0_0 : ∀ a, (![0, 0] : Fin 2 → Nat) a < S1x1.size a
  inb_S1x16_S1x1_0_1 : ∀ a, (![0, 1] : Fin 2 → Nat) a + S1x1.size a ≤ S1x16.size a
  inb_S1x16_S1x1_0_2 : ∀ a, (![0, 2] : Fin 2 → Nat) a + S1x1.size a ≤ S1x16.size a
  inb_S1x16_S1x1_0_3 : ∀ a, (![0, 3] : Fin 2 → Nat) a + S1x1.size a ≤ S1x16.size a
  inb_S1x16_S1x1_0_4 : ∀ a, (![0, 4] : Fin 2 → Nat) a + S1x1.size a ≤ S1x16.size a
  inb_S1x16_S1x1_0_5 : ∀ a, (![0, 5] : Fin 2 → Nat) a + S1x1.size a ≤ S1x16.size a
  inb_S1x16_S1x1_0_6 : ∀ a, (![0, 6] : Fin 2 → Nat) a + S1x1.size a ≤ S1x16.size a
  inb_S1x16_S1x1_0_7 : ∀ a, (![0, 7] : Fin 2 → Nat) a + S1x1.size a ≤ S1x16.size a
  inb_S1x16_S1x1_0_8 : ∀ a, (![0, 8] : Fin 2 → Nat) a + S1x1.size a ≤ S1x16.size a
  inb_S1x16_S1x1_0_9 : ∀ a, (![0, 9] : Fin 2 → Nat) a + S1x1.size a ≤ S1x16.size a
  inb_S1x16_S1x1_0_10 : ∀ a, (![0, 10] : Fin 2 → Nat) a + S1x1.size a ≤ S1x16.size a
  inb_S1x16_S1x1_0_11 : ∀ a, (![0, 11] : Fin 2 → Nat) a + S1x1.size a ≤ S1x16.size a
  inb_S1x16_S1x1_0_12 : ∀ a, (![0, 12] : Fin 2 → Nat) a + S1x1.size a ≤ S1x16.size a
  inb_S1x16_S1x1_0_13 : ∀ a, (![0, 13] : Fin 2 → Nat) a + S1x1.size a ≤ S1x16.size a
  inb_S1x16_S1x1_0_14 : ∀ a, (![0, 14] : Fin 2 → Nat) a + S1x1.size a ≤ S1x16.size a
  inb_S1x16_S1x1_0_15 : ∀ a, (![0, 15] : Fin 2 → Nat) a + S1x1.size a ≤ S1x16.size a
  natLt_1_32 : 1 < 32
  bcast_S_S2048 : S_.BroadcastsInDim S2048 (![] : Fin 0 → Fin S2048.rank)
  gather_S131072_S8388608x1_S8388608_n_0_n_n_0_1_1_wf : GatherDims.WF S131072 S8388608x1 S8388608 [] [0] [] [0] [] 1 ![1]
  scatter_S2048_S8388608x1_S8388608_n_0_0_1_wf : ScatterDims.WF S2048 S8388608x1 S8388608 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x262144.size a ≤ S1x8388608.size a
  hwx0_0 : ∀ i : grid0.Coords, EltTy.bits .i32 = 32 ∨ (Rect.block (s := S1x8388608) S1x262144.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x262144.size a ≤ S1x8388608.size a
  hwx0_1 : ∀ i : grid0.Coords, EltTy.bits .i32 = 32 ∨ (Rect.block (s := S1x8388608) S1x262144.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x262144.size a ≤ S1x8388608.size a
  hwx0_2 : ∀ i : grid0.Coords, EltTy.bits .f32 = 32 ∨ (Rect.block (s := S1x8388608) S1x262144.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x262144.size a ≤ S1x8388608.size a
  hwx0_6 : ∀ i : grid0.Coords, EltTy.bits .f32 = 32 ∨ (Rect.block (s := S1x8388608) S1x262144.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x262144.size a ≤ S1x8388608.size a
  hwx0_7 : ∀ i : grid0.Coords, EltTy.bits .i32 = 32 ∨ (Rect.block (s := S1x8388608) S1x262144.size (cc0_transform_7 i) (hinb0_7 i)).WholeWords (EltTy.packing .i32)

variable [Facts₀]

def gather_S131072_S8388608x1_S8388608_n_0_n_n_0_1_1 : GatherDims S131072 S8388608x1 S8388608 where
  offsetDims := []
  collapsedSliceDims := [0]
  operandBatchingDims := []
  startIndicesBatchingDims := []
  startIndexMap := [0]
  indexVectorDim := 1
  sliceSizes := ![1]
  wf := gather_S131072_S8388608x1_S8388608_n_0_n_n_0_1_1_wf
def scatter_S2048_S8388608x1_S8388608_n_0_0_1 : ScatterDims S2048 S8388608x1 S8388608 where
  updateWindowDims := []
  insertedWindowDims := [0]
  scatterDimsToOperandDims := [0]
  indexVectorDim := 1
  wf := scatter_S2048_S8388608x1_S8388608_n_0_0_1_wf

abbrev win0_0 : Pipeline.Window sig grid0 :=
  Pipeline.Window.ofSpec (Memref.whole main_v10) S1x262144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x262144.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x262144.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S1x262144.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S1x262144.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x64 : Shape := ⟨2, ![2048, 64]⟩
abbrev S2x8388608 : Shape := ⟨2, ![2, 8388608]⟩
abbrev S8388608 : Shape := ⟨1, ![8388608]⟩
abbrev S4x4 : Shape := ⟨2, ![4, 4]⟩
abbrev S_ : Shape := ⟨0, ![]⟩
abbrev S131072 : Shape := ⟨1, ![131072]⟩
abbrev S2x8388608x1 : Shape := ⟨3, ![2, 8388608, 1]⟩
abbrev S1x8388608 : Shape := ⟨2, ![1, 8388608]⟩
abbrev S8388608x1 : Shape := ⟨2, ![8388608, 1]⟩
abbrev S8388608x2 : Shape := ⟨2, ![8388608, 2]⟩
abbrev S2048 : Shape := ⟨1, ![2048]⟩

abbrev nBuf : Space → Nat
  | .hbm => 135
  | .vmem => 0
  | .smem => 0
  | _ => 0

abbrev hbmTy0_0 (i : Nat) : BufTy := match i % 128 with
  | 0 => ⟨S2048x64, .i32⟩
  | 1 => ⟨S2x8388608, .i32⟩
  | 2 => ⟨S8388608, .f32⟩
  | 3 => ⟨S4x4, .f32⟩
  | 4 => ⟨S4x4, .f32⟩
  | 5 => ⟨S4x4, .f32⟩
  | 6 => ⟨S_, .f32⟩
  | 7 => ⟨S_, .f32⟩
  | 8 => ⟨S8388608, .f32⟩
  | 9 => ⟨S8388608, .f32⟩
  | 10 => ⟨S_, .f32⟩
  | 11 => ⟨S8388608, .f32⟩
  | 12 => ⟨S8388608, .f32⟩
  | 13 => ⟨S131072, .i32⟩
  | 14 => ⟨S_, .i32⟩
  | 15 => ⟨S2x8388608, .i32⟩
  | 16 => ⟨S2x8388608, .i1⟩
  | 17 => ⟨S_, .i32⟩
  | 18 => ⟨S2x8388608, .i32⟩
  | 19 => ⟨S2x8388608, .i32⟩
  | 20 => ⟨S2x8388608, .i32⟩
  | 21 => ⟨S2x8388608x1, .i32⟩
  | 22 => ⟨S2x8388608, .i32⟩
  | 23 => ⟨S1x8388608, .i32⟩
  | 24 => ⟨S8388608, .i32⟩
  | 25 => ⟨S1x8388608, .i32⟩
  | 26 => ⟨S8388608, .i32⟩
  | 27 => ⟨S_, .i32⟩
  | 28 => ⟨S8388608, .i32⟩
  | 29 => ⟨S8388608, .i1⟩
  | 30 => ⟨S_, .i32⟩
  | 31 => ⟨S8388608, .i32⟩
  | 32 => ⟨S8388608, .i32⟩
  | 33 => ⟨S8388608, .i32⟩
  | 34 => ⟨S_, .i32⟩
  | 35 => ⟨S8388608, .i32⟩
  | 36 => ⟨S8388608, .i1⟩
  | 37 => ⟨S_, .i32⟩
  | 38 => ⟨S8388608, .i32⟩
  | 39 => ⟨S8388608, .i32⟩
  | 40 => ⟨S8388608, .i32⟩
  | 41 => ⟨S8388608x1, .i32⟩
  | 42 => ⟨S8388608x1, .i32⟩
  | 43 => ⟨S8388608x2, .i32⟩
  | 44 => ⟨S8388608, .f32⟩
  | 45 => ⟨S_, .i32⟩
  | 46 => ⟨S8388608, .i32⟩
  | 47 => ⟨S8388608, .i1⟩
  | 48 => ⟨S_, .i32⟩
  | 49 => ⟨S8388608, .i32⟩
  | 50 => ⟨S8388608, .i32⟩
  | 51 => ⟨S8388608, .i32⟩
  | 52 => ⟨S_, .i32⟩
  | 53 => ⟨S8388608, .i32⟩
  | 54 => ⟨S8388608, .i1⟩
  | 55 => ⟨S_, .i32⟩
  | 56 => ⟨S8388608, .i32⟩
  | 57 => ⟨S8388608, .i32⟩
  | 58 => ⟨S8388608, .i32⟩
  | 59 => ⟨S8388608x1, .i32⟩
  | 60 => ⟨S8388608x1, .i32⟩
  | 61 => ⟨S8388608x2, .i32⟩
  | 62 => ⟨S8388608, .f32⟩
  | 63 => ⟨S_, .i32⟩
  | 64 => ⟨S8388608, .i32⟩
  | 65 => ⟨S8388608, .i1⟩
  | 66 => ⟨S_, .i32⟩
  | 67 => ⟨S8388608, .i32⟩
  | 68 => ⟨S8388608, .i32⟩
  | 69 => ⟨S8388608, .i32⟩
  | 70 => ⟨S_, .i32⟩
  | 71 => ⟨S8388608, .i32⟩
  | 72 => ⟨S8388608, .i1⟩
  | 73 => ⟨S_, .i32⟩
  | 74 => ⟨S8388608, .i32⟩
  | 75 => ⟨S8388608, .i32⟩
  | 76 => ⟨S8388608, .i32⟩
  | 77 => ⟨S8388608x1, .i32⟩
  | 78 => ⟨S8388608x1, .i32⟩
  | 79 => ⟨S8388608x2, .i32⟩
  | 80 => ⟨S8388608, .f32⟩
  | 81 => ⟨S8388608, .f32⟩
  | 82 => ⟨S8388608, .f32⟩
  | 83 => ⟨S8388608, .f32⟩
  | 84 => ⟨S8388608, .f32⟩
  | 85 => ⟨S8388608, .f32⟩
  | 86 => ⟨S8388608, .f32⟩
  | 87 => ⟨S_, .f32⟩
  | 88 => ⟨S8388608, .f32⟩
  | 89 => ⟨S8388608, .f32⟩
  | 90 => ⟨S8388608, .f32⟩
  | 91 => ⟨S_, .f32⟩
  | 92 => ⟨S8388608, .f32⟩
  | 93 => ⟨S8388608, .f32⟩
  | 94 => ⟨S_, .f32⟩
  | 95 => ⟨S8388608, .f32⟩
  | 96 => ⟨S8388608, .f32⟩
  | 97 => ⟨S_, .f32⟩
  | 98 => ⟨S8388608, .f32⟩
  | 99 => ⟨S8388608, .f32⟩
  | 100 => ⟨S_, .f32⟩
  | 101 => ⟨S8388608, .f32⟩
  | 102 => ⟨S8388608, .f32⟩
  | 103 => ⟨S_, .f32⟩
  | 104 => ⟨S8388608, .f32⟩
  | 105 => ⟨S8388608, .i1⟩
  | 106 => ⟨S8388608, .f32⟩
  | 107 => ⟨S_, .f32⟩
  | 108 => ⟨S8388608, .f32⟩
  | 109 => ⟨S8388608, .f32⟩
  | 110 => ⟨S8388608, .f32⟩
  | 111 => ⟨S1x8388608, .i32⟩
  | 112 => ⟨S8388608, .i32⟩
  | 113 => ⟨S_, .i32⟩
  | 114 => ⟨S_, .i32⟩
  | 115 => ⟨S8388608, .i32⟩
  | 116 => ⟨S8388608, .i32⟩
  | 117 => ⟨S8388608, .i32⟩
  | 118 => ⟨S_, .i32⟩
  | 119 => ⟨S8388608, .i32⟩
  | 120 => ⟨S8388608, .i1⟩
  | 121 => ⟨S8388608, .i32⟩
  | 122 => ⟨S8388608, .i32⟩
  | 123 => ⟨S_, .i32⟩
  | 124 => ⟨S8388608, .i32⟩
  | 125 => ⟨S8388608, .i1⟩
  | 126 => ⟨S8388608, .i1⟩
  | 127 => ⟨S_, .i32⟩
  | _ => ⟨S2048x64, .i32⟩

abbrev hbmTy0_1 (i : Nat) : BufTy := match i % 128 with
  | 0 => ⟨S8388608, .i32⟩
  | 1 => ⟨S8388608, .i32⟩
  | 2 => ⟨S8388608, .i32⟩
  | 3 => ⟨S_, .f32⟩
  | 4 => ⟨S2048, .f32⟩
  | 5 => ⟨S8388608x1, .i32⟩
  | 6 => ⟨S2048, .f32⟩
  | _ => ⟨S2048x64, .i32⟩

abbrev hbmTy (i : Nat) : BufTy := match i / 128 with
  | 0 => hbmTy0_0 i
  | 1 => hbmTy0_1 i
  | _ => ⟨S2048x64, .i32⟩

abbrev bufTy : (tb : Table) → Fin (tcTables nBuf tb) → BufTy
  | .hbm, ⟨i, _⟩ => hbmTy i
  | _, _ => ⟨S2048x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_10 : Ref sig .tc := ⟨.hbm, 63, rfl⟩
abbrev main_v43 : Ref sig .tc := ⟨.hbm, 64, rfl⟩
abbrev main_v44 : Ref sig .tc := ⟨.hbm, 65, rfl⟩
abbrev main_c_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_12 : Ref sig .tc := ⟨.hbm, 70, rfl⟩
abbrev main_v48 : Ref sig .tc := ⟨.hbm, 71, rfl⟩
abbrev main_v49 : Ref sig .tc := ⟨.hbm, 72, rfl⟩
abbrev main_c_13 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_15 : Ref sig .tc := ⟨.hbm, 91, rfl⟩
abbrev main_v66 : Ref sig .tc := ⟨.hbm, 92, rfl⟩
abbrev main_v67 : Ref sig .tc := ⟨.hbm, 93, rfl⟩
abbrev main_cst_16 : Ref sig .tc := ⟨.hbm, 94, rfl⟩
abbrev main_v68 : Ref sig .tc := ⟨.hbm, 95, rfl⟩
abbrev main_v69 : Ref sig .tc := ⟨.hbm, 96, rfl⟩
abbrev main_cst_17 : Ref sig .tc := ⟨.hbm, 97, rfl⟩
abbrev main_v70 : Ref sig .tc := ⟨.hbm, 98, rfl⟩
abbrev main_v71 : Ref sig .tc := ⟨.hbm, 99, rfl⟩
abbrev main_cst_18 : Ref sig .tc := ⟨.hbm, 100, rfl⟩
abbrev main_v72 : Ref sig .tc := ⟨.hbm, 101, rfl⟩
abbrev main_v73 : Ref sig .tc := ⟨.hbm, 102, rfl⟩
abbrev main_cst_19 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_20 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_21 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_v6 : Ref sig .tc := ⟨.hbm, 120, rfl⟩
abbrev main_call2_v7 : Ref sig .tc := ⟨.hbm, 121, rfl⟩
abbrev main_call2_v8 : Ref sig .tc := ⟨.hbm, 122, rfl⟩
abbrev main_call2_c : Ref sig .tc := ⟨.hbm, 123, rfl⟩
abbrev main_call2_v9 : Ref sig .tc := ⟨.hbm, 124, rfl⟩
abbrev main_call2_v10 : Ref sig .tc := ⟨.hbm, 125, rfl⟩
abbrev main_call2_v11 : Ref sig .tc := ⟨.hbm, 126, rfl⟩
abbrev main_call2_c_0 : Ref sig .tc := ⟨.hbm, 127, rfl⟩
abbrev main_call2_v12 : Ref sig .tc := ⟨.hbm, 128, rfl⟩
abbrev main_call2_v13 : Ref sig .tc := ⟨.hbm, 129, rfl⟩
abbrev main_v82 : Ref sig .tc := ⟨.hbm, 130, rfl⟩
abbrev main_cst_22 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  shapeCasts_S2048x64_S131072 : S2048x64.ShapeCasts S131072
  bcast_S_S2x8388608 : S_.BroadcastsInDim S2x8388608 (![] : Fin 0 → Fin S2x8388608.rank)
  bcast_S2x8388608_S2x8388608x1_0_1 : S2x8388608.BroadcastsInDim S2x8388608x1 (![0, 1] : Fin 2 → Fin S2x8388608x1.rank)
  slices_S2x8388608_S1x8388608_0_0 : S2x8388608.Slices ![0, 0] S1x8388608
  shapeCasts_S1x8388608_S8388608 : S1x8388608.ShapeCasts S8388608
  slices_S2x8388608_S1x8388608_1_0 : S2x8388608.Slices ![1, 0] S1x8388608
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  bcast_S_S2048 : S_.BroadcastsInDim S2048 (![] : Fin 0 → Fin S2048.rank)
  gather_S131072_S2x8388608x1_S2x8388608_n_0_n_n_0_2_1_wf : GatherDims.WF S131072 S2x8388608x1 S2x8388608 [] [0] [] [0] [] 2 ![1]
  gather_S4x4_S8388608x2_S8388608_n_01_n_n_01_1_11_wf : GatherDims.WF S4x4 S8388608x2 S8388608 [] [0, 1] [] [0, 1] [] 1 ![1, 1]
  scatter_S2048_S8388608x1_S8388608_n_0_0_1_wf : ScatterDims.WF S2048 S8388608x1 S8388608 [] [0] [0] 1

variable [Facts₀]

def gather_S131072_S2x8388608x1_S2x8388608_n_0_n_n_0_2_1 : GatherDims S131072 S2x8388608x1 S2x8388608 where
  offsetDims := []
  collapsedSliceDims := [0]
  operandBatchingDims := []
  startIndicesBatchingDims := []
  startIndexMap := [0]
  indexVectorDim := 2
  sliceSizes := ![1]
  wf := gather_S131072_S2x8388608x1_S2x8388608_n_0_n_n_0_2_1_wf
def gather_S4x4_S8388608x2_S8388608_n_01_n_n_01_1_11 : GatherDims S4x4 S8388608x2 S8388608 where
  offsetDims := []
  collapsedSliceDims := [0, 1]
  operandBatchingDims := []
  startIndicesBatchingDims := []
  startIndexMap := [0, 1]
  indexVectorDim := 1
  sliceSizes := ![1, 1]
  wf := gather_S4x4_S8388608x2_S8388608_n_01_n_n_01_1_11_wf
def scatter_S2048_S8388608x1_S8388608_n_0_0_1 : ScatterDims S2048 S8388608x1 S8388608 where
  updateWindowDims := []
  insertedWindowDims := [0]
  scatterDimsToOperandDims := [0]
  indexVectorDim := 1
  wf := scatter_S2048_S8388608x1_S8388608_n_0_0_1_wf

class Facts : Prop extends Facts₀ where

variable [Facts]
-- ==== Proof.Spec.lean ====
/-
  The pair-repulsion energy, stated once, independently of either program.

  Inputs: an element table E[2048, 64] (species codes), a pair list N[2, P] of flat atom numbers (P = 8388608),
  pair distances D[P] in angstrom and three 4 x 4 species-pair parameter tables Y, A, K.
  For pair p the atoms are N[0, p] and N[1, p]; atom n sits at row n / 64, column n % 64 of E; its species is the
  table's entry there.  With s0, s1 the two species, y = Y[s0, s1], a = A[s0, s1], k = K[s0, s1] and
  d = max(D[p], 1e-7) * bohr, the pair's energy is

      (y / d) * exp(-a * d^k) * cut(d),    cut(d) = exp(1 - 1 / max(1 - (d / rc)^2, 1e-10)) for d < rc, else 0,

  and it is added to the molecule N[0, p] / 64 (64 atoms per molecule).

  Two spellings of the scalar formula are given: one with the power written d^k (`repPow`), one with the power
  written exp(k * log d) and the negation written 0 - a (`repExpLog`).  For a finite distance the clamped, scaled
  d is a positive real, and for a real exponent k the two agree: x^k = exp(log x * k) for x > 0.
-/
import Idealize.ShloMosaic.PureOps.Ideal
import Idealize.ShloMosaic.Lib.ValueIdx

noncomputable section

namespace Repulsion

open Idealize.ShloMosaic Idealize.ShloMosaic.ValueIdx

abbrev SE : Shape := ⟨2, ![2048, 64]⟩
abbrev SN : Shape := ⟨2, ![2, 8388608]⟩
abbrev SP : Shape := ⟨1, ![8388608]⟩
abbrev ST : Shape := ⟨2, ![4, 4]⟩

/-- 1e-7 as an f32, the lower clamp of a distance. -/
abbrev cMin : EReal := Ideal.ofBits .f32 0x33D6BF95#32
/-- Angstrom to bohr, as an f32. -/
abbrev cBohr : EReal := Ideal.ofBits .f32 0x3FF1E28C#32
/-- The cutoff radius in bohr, as an f32. -/
abbrev cRc : EReal := Ideal.ofBits .f32 0x411D39A8#32
abbrev cOne : EReal := Ideal.ofBits .f32 0x3F800000#32
/-- 1e-10 as an f32, the floor of the cutoff's denominator. -/
abbrev cEps : EReal := Ideal.ofBits .f32 0x2EDBE6FF#32
abbrev cZero : EReal := Ideal.ofBits .f32 0x00000000#32

/-- The smooth cutoff at scaled distance `d`. -/
def cut (d : EReal) : EReal :=
  Scalar.select (Ideal.cmp .olt d cRc)
    (Ideal.exp (cOne - Ideal.div cOne (max (cOne - Ideal.div d cRc * Ideal.div d cRc) cEps))) cZero

/-- The pair energy with the power written `d ^ k`; `d` is the clamped, scaled distance. -/
def repPow (y a k d : EReal) : EReal :=
  Ideal.div y d * Ideal.exp (-a * Ideal.pow d k) * cut d

/-- The pair energy with the power written `exp (k * log d)` and the negation `0 - a`. -/
def repExpLog (y a k d : EReal) : EReal :=
  Ideal.div y d * Ideal.exp ((cZero - a) * Ideal.exp (k * Ideal.log d)) * cut d

/-- The clamped, scaled distance, the clamp written `max x cMin`. -/
def scaled (x : EReal) : EReal := max x cMin * cBohr

/-- Atom `n`'s species: the element table at row `n / 64`, column `n % 64`. -/
def elemAt (E : IVec SE 32) (n : BitVec 32) : BitVec 32 :=
  E (ix2 ⟨n.toNat / 64 % 2048, Nat.mod_lt _ (by decide)⟩ ⟨n.toNat % 64, Nat.mod_lt _ (by decide)⟩)

/-- A species-pair table at species `(a, b)`. -/
def tabAt (T : FVec Ideal ST .f32) (a b : BitVec 32) : EReal :=
  T (ix2 ⟨a.toNat % 4, Nat.mod_lt _ (by decide)⟩ ⟨b.toNat % 4, Nat.mod_lt _ (by decide)⟩)

/-- The first and second atom of pair `p`. -/
def atom0 (N : IVec SN 32) (p : Fin 8388608) : BitVec 32 := N (ix2 (0 : Fin 2) p)
def atom1 (N : IVec SN 32) (p : Fin 8388608) : BitVec 32 := N (ix2 (1 : Fin 2) p)

/-- Every pair's energy. -/
def repArr (E : IVec SE 32) (N : IVec SN 32) (D : FVec Ideal SP .f32) (Y A K : FVec Ideal ST .f32) : FVec Ideal SP .f32 :=
  fun i =>
    repPow (tabAt Y (elemAt E (atom0 N (i 0))) (elemAt E (atom1 N (i 0))))
      (tabAt A (elemAt E (atom0 N (i 0))) (elemAt E (atom1 N (i 0))))
      (tabAt K (elemAt E (atom0 N (i 0))) (elemAt E (atom1 N (i 0))))
      (scaled (D i))

/-- Every pair's molecule: its first atom's number divided by 64. -/
def molArr (N : IVec SN 32) : IVec SP 32 := fun i => BitVec.ofNat 32 ((atom0 N (i 0)).toNat / 64)

/-- The domain on which both programs are compared: species codes index the 4 x 4 tables, atom numbers index the
    2048 * 64 element table, distances and exponents are real numbers. -/
structure Dom (E : IVec SE 32) (N : IVec SN 32) (D : FVec Ideal SP .f32) (K : FVec Ideal ST .f32) : Prop where
  elem : ∀ i, (E i).toNat < 4
  atom : ∀ i, (N i).toNat < 131072
  dist : ∀ i, ∃ r : ℝ, D i = (r : EReal)
  expo : ∀ i, ∃ r : ℝ, K i = (r : EReal)

end Repulsion

end
-- ==== Proof.KerBody.lean ====
/-
  The kernel body's two stores read at one lane: what the body leaves in its two output blocks, as functions of the
  six input blocks, at column q of the [1, 262144] block.
-/
import proofs.«402865_j56143812494147_3_alg».proof.Proof.Gen.KernelIdeal.Frame
import proofs.«402865_j56143812494147_3_alg».proof.Proof.Spec
import Idealize.ShloMosaic.Lib.Pipeline.Value
import Idealize.ShloMosaic.Lib.ValueIdx
import Idealize.ShloMosaic.Lib.StableHlo.Predicate

noncomputable section

namespace Cert.KernelIdeal.Body

open Idealize.ShloMosaic Idealize.ShloMosaic.ValueIdx Cert.KernelIdeal Cert.KernelIdeal.Gen

/-- What the body's sixteen-way chain of selects picks from a [1, 16] table row for a pair code `c`: the entry at
    column `c` when `c` is one of 0 … 15, and the zero it started from otherwise. -/
def pick (T : Vec Ideal S1x16 .f32) (c : BitVec 32) : EReal :=
  if h : c.toNat < 16 then T (ix2 (0 : Fin 1) ⟨c.toNat, h⟩) else Repulsion.cZero

namespace Lane

/-! ### Pointwise operations read at an index (each is its definition) -/

theorem cmpi_at {s : Shape} {w : Nat} (p : CmpIPredicate) (a b : IVec s w) (i : s.Idx) :
    cmpi p a b i = IntOp.cmpi p (a i) (b i) := rfl
theorem subi_at {s : Shape} {w : Nat} (a b : IVec s w) (i : s.Idx) : subi a b i = IntOp.subi (a i) (b i) := rfl
theorem andi_at {s : Shape} {w : Nat} (a b : IVec s w) (i : s.Idx) : andi a b i = IntOp.andi (a i) (b i) := rfl
theorem divsi_at {s : Shape} {w : Nat} (a b : IVec s w) (i : s.Idx) :
    divsi a b i = IntOp.divsi .vector (a i) (b i) := rfl
theorem remsi_at {s : Shape} {w : Nat} (a b : IVec s w) (i : s.Idx) :
    remsi a b i = IntOp.remsi .vector (a i) (b i) := rfl
theorem exp_at {s : Shape} {φ : FTy} (a : FVec Ideal s φ) (i : s.Idx) :
    Idealize.ShloMosaic.exp a i = Ideal.exp (a i) := rfl
theorem log_at {s : Shape} {φ : FTy} (a : FVec Ideal s φ) (i : s.Idx) :
    Idealize.ShloMosaic.log a i = Ideal.log (a i) := rfl
theorem cmpf_at {s : Shape} {φ : FTy} (p : CmpFPredicate) (a b : FVec Ideal s φ) (i : s.Idx) :
    cmpf p a b i = Ideal.cmp p (a i) (b i) := rfl

/-! ### A one-element load of a table row -/

/-- A one-element block that fits in a row of sixteen starts at a column below sixteen. -/
theorem col_lt (k : Nat) (h : ∀ a, (![0, k] : Fin 2 → Nat) a + S1x1.size a ≤ S1x16.size a) : k < 16 := by
  have h1 := h 1
  simp at h1
  omega

/-- The one-element block at column `k` of a [1, 16] row, read at its only position, is the row's entry there:
    the block's position (0, 0) sits at row 0 + 0, column k + 0 of the row. -/
theorem ld_col (x : Vec Ideal S1x16 .f32) (k : Nat)
    (h : ∀ a, (![0, k] : Fin 2 → Nat) a + S1x1.size a ≤ S1x16.size a)
    (hp : ∀ a, (![0, 0] : Fin 2 → Nat) a < S1x1.size a) :
    (extractAt ![0, 0] (View.ld x (Rect.unit (s := S1x16) ![0, k] S1x1.size h) : Vec Ideal S1x1 .f32) hp : Ideal .f32)
      = x (ix2 (0 : Fin 1) ⟨k, col_lt k h⟩) := by
  show x _ = x _
  congr 1
  funext a
  apply Fin.ext
  fin_cases a <;> simp [LoadRect.idx]

/-! ### The select chain -/

/-- One link of the chain: a select on a word equality is a test of that equality. -/
theorem sel_eq {α : Type} (c k : BitVec 32) (a b : α) :
    Scalar.select (IntOp.cmpi .eq c k) a b = if c = k then a else b := by
  by_cases h : c = k
  · rw [if_pos h, StableHlo.Predicate.cmpi_eq_iff.mpr h, select_one]
  · rw [if_neg h, eq_zero_of_ne_one (mt StableHlo.Predicate.cmpi_eq_iff.mp h), select_zero]

/-- `pick` as the chain of sixteen tests, the last constant tested first. The sixteen constants are distinct, so a
    code below sixteen passes exactly its own test; a code of sixteen or more passes none and the chain falls
    through to the zero. -/
theorem pick_eq (T : Vec Ideal S1x16 .f32) (c : BitVec 32) :
    pick T c =
      if c = 15#32 then T (ix2 (0 : Fin 1) ⟨15, by decide⟩) else
      if c = 14#32 then T (ix2 (0 : Fin 1) ⟨14, by decide⟩) else
      if c = 13#32 then T (ix2 (0 : Fin 1) ⟨13, by decide⟩) else
      if c = 12#32 then T (ix2 (0 : Fin 1) ⟨12, by decide⟩) else
      if c = 11#32 then T (ix2 (0 : Fin 1) ⟨11, by decide⟩) else
      if c = 10#32 then T (ix2 (0 : Fin 1) ⟨10, by decide⟩) else
      if c = 9#32 then T (ix2 (0 : Fin 1) ⟨9, by decide⟩) else
      if c = 8#32 then T (ix2 (0 : Fin 1) ⟨8, by decide⟩) else
      if c = 7#32 then T (ix2 (0 : Fin 1) ⟨7, by decide⟩) else
      if c = 6#32 then T (ix2 (0 : Fin 1) ⟨6, by decide⟩) else
      if c = 5#32 then T (ix2 (0 : Fin 1) ⟨5, by decide⟩) else
      if c = 4#32 then T (ix2 (0 : Fin 1) ⟨4, by decide⟩) else
      if c = 3#32 then T (ix2 (0 : Fin 1) ⟨3, by decide⟩) else
      if c = 2#32 then T (ix2 (0 : Fin 1) ⟨2, by decide⟩) else
      if c = 1#32 then T (ix2 (0 : Fin 1) ⟨1, by decide⟩) else
      if c = 0#32 then T (ix2 (0 : Fin 1) ⟨0, by decide⟩) else Repulsion.cZero := by
  unfold pick
  by_cases h : c.toNat < 16
  · rw [dif_pos h]
    obtain ⟨n, rfl⟩ : ∃ n : Fin 16, c = BitVec.ofNat 32 n.val := ⟨⟨c.toNat, h⟩, by simp⟩
    fin_cases n <;> first | rfl | simp
  · rw [dif_neg h]
    have hk : ∀ k : Nat, k < 16 → ¬ c = BitVec.ofNat 32 k := by
      intro k hk e
      apply h
      rw [e, BitVec.toNat_ofNat]
      exact Nat.lt_of_le_of_lt (Nat.mod_le _ _) hk
    rw [if_neg (hk 15 (by decide)), if_neg (hk 14 (by decide)), if_neg (hk 13 (by decide)), if_neg (hk 12 (by decide)), if_neg (hk 11 (by decide)), if_neg (hk 10 (by decide)), if_neg (hk 9 (by decide)), if_neg (hk 8 (by decide)), if_neg (hk 7 (by decide)), if_neg (hk 6 (by decide)), if_neg (hk 5 (by decide)), if_neg (hk 4 (by decide)), if_neg (hk 3 (by decide)), if_neg (hk 2 (by decide)), if_neg (hk 1 (by decide)), if_neg (hk 0 (by decide))]

/-! ### Floor division by 64 of a small non-negative word -/

/-- The body's spelling of floor division by 64 at one lane: the quotient rounded toward zero, less one when the
    operands' signs differ and the remainder is not zero. -/
def fdiv64 (n : BitVec 32) : BitVec 32 :=
  Scalar.select
    (IntOp.andi
      (IntOp.cmpi .ne
        (IntOp.subi ((IntOp.cmpi .sgt n 0#32).setWidth 32) ((IntOp.cmpi .slt n 0#32).setWidth 32))
        (Scalar.subi (Scalar.extui (Scalar.cmpi .sgt 64#32 0#32)) (Scalar.extui (Scalar.cmpi .slt 64#32 0#32))))
      (IntOp.cmpi .ne (IntOp.remsi .vector n 64#32) 0#32))
    (IntOp.subi (IntOp.divsi .vector n 64#32) 1#32)
    (IntOp.divsi .vector n 64#32)

/-- On a word below 2^17 the signed quotient by 64 is the quotient of the values: both operands are non-negative
    and the division meets no corner. -/
theorem divsi64 (n : BitVec 32) (h : n.toNat < 131072) :
    IntOp.divsi .vector n 64#32 = BitVec.ofNat 32 (n.toNat / 64) := by
  have hcorner : ¬ IntOp.SDivCorner n 64#32 := by
    intro hc; rcases hc with hc | ⟨_, hc⟩ <;> exact absurd hc (by decide)
  have hm : n.msb = false := BitVec.msb_eq_false_iff_two_mul_lt.mpr (by omega)
  apply BitVec.eq_of_toNat_eq
  simp only [IntOp.divsi, if_neg hcorner, BitVec.sdiv_eq, hm, show (64#32 : BitVec 32).msb = false from by decide,
    BitVec.udiv_eq, BitVec.toNat_udiv, BitVec.toNat_ofNat, Nat.reducePow, Nat.reduceMod]
  omega

/-- The correction never fires on such a word: zero has remainder zero, and a positive word has the divisor's
    sign. -/
theorem fdiv64_eq (n : BitVec 32) (h : n.toNat < 131072) : fdiv64 n = BitVec.ofNat 32 (n.toNat / 64) := by
  unfold fdiv64
  rw [← divsi64 n h]
  by_cases h0 : n.toNat = 0
  · have hn : n = 0#32 := BitVec.eq_of_toNat_eq (by rw [h0]; rfl)
    subst hn
    decide
  · have hs : IntOp.cmpi .sgt n 0#32 = 1#1 :=
      (StableHlo.Predicate.sgt_iff_toNat (by omega) (by decide)).mpr (by
        show (0#32 : BitVec 32).toNat < n.toNat
        have : (0#32 : BitVec 32).toNat = 0 := rfl
        omega)
    have hl : IntOp.cmpi .slt n 0#32 = 0#1 :=
      eq_zero_of_ne_one (mt (StableHlo.Predicate.slt_iff_toNat (by omega) (by decide)).mp (by
        have : (0#32 : BitVec 32).toNat = 0 := rfl
        omega))
    rw [hs, hl]
    have hc : IntOp.cmpi .ne (IntOp.subi ((1#1 : BitVec 1).setWidth 32) ((0#1 : BitVec 1).setWidth 32))
        (Scalar.subi (Scalar.extui (Scalar.cmpi .sgt 64#32 0#32)) (Scalar.extui (Scalar.cmpi .slt 64#32 0#32))) = 0#1 := by
      decide
    rw [hc]
    have ha : ∀ b : BitVec 1, IntOp.andi 0#1 b = 0#1 := by decide
    rw [ha, select_zero]

/-- The whole-block rectangle's offsets are all zero. -/
theorem hz2 : (![0, 0] : Fin 2 → Nat) = fun _ => 0 := by
  funext a; fin_cases a <;> rfl

end Lane

open Lane

/-! ### The two output blocks at a lane -/

/-- The energy block at lane `q`: the formula with the power spelt exp (k * log d), of the three table entries
    the pair code picks and of the clamped, scaled distance. The one store covers the block, every whole-block load
    reads its input, and the payload is pointwise; each table's chain of selects is `pick`. -/
theorem rep_at (x0 x1 : Vec Ideal S1x262144 .i32) (x2 : Vec Ideal S1x262144 .f32) (x3 x4 x5 : Vec Ideal S1x16 .f32)
    (q : Fin 262144) :
    out0_6 (F := Ideal) x0 x1 x2 x3 x4 x5 (ix2 (0 : Fin 1) q)
      = Repulsion.repExpLog (pick x3 (x0 (ix2 (0 : Fin 1) q))) (pick x4 (x0 (ix2 (0 : Fin 1) q)))
          (pick x5 (x0 (ix2 (0 : Fin 1) q))) (Repulsion.scaled (x2 (ix2 (0 : Fin 1) q))) := by
  unfold out0_6
  rw [View.canon_unit_zero hz2]
  simp only [View.ld_unit_zero (S := S1x262144) hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, shapeCast_self, select_apply, broadcast_apply, mulf_apply, subf_apply, divf_apply,
    maximumf_apply, cmpf_at, cmpi_at, exp_at, log_at, ld_col, Ideal.ofBits_def]
  simp only [sel_eq, pick_eq, Repulsion.repExpLog, Repulsion.cut, Repulsion.scaled]

/-- The molecule block at lane `q`: an atom number in range is non-negative, so its floor division by 64 is the
    plain quotient. -/
theorem mol_at (x0 x1 : Vec Ideal S1x262144 .i32) (x2 : Vec Ideal S1x262144 .f32) (x3 x4 x5 : Vec Ideal S1x16 .f32)
    (q : Fin 262144) (h : (x1 (ix2 (0 : Fin 1) q)).toNat < 131072) :
    out0_7 (F := Ideal) x0 x1 x2 x3 x4 x5 (ix2 (0 : Fin 1) q)
      = BitVec.ofNat 32 ((x1 (ix2 (0 : Fin 1) q)).toNat / 64) := by
  unfold out0_7
  rw [View.canon_unit_zero hz2]
  simp only [View.ld_unit_zero (S := S1x262144) hz2]
  simp only [k0_pay1, k0_pay3, k0_pay44, k0_pay45, k0_pay46, k0_pay47, shapeCast_self, select_apply, broadcast_apply,
    cmpi_at, subi_at, andi_at, divsi_at, remsi_at, extui_apply]
  exact fdiv64_eq _ h

end Cert.KernelIdeal.Body

end
-- ==== Proof.KerRegion.lean ====
/-
  The pipelined region read as two whole-array functions.

  The region walks 32 grid points; at point t every [1, 8388608] operand is staged through its block of columns
  262144 t … 262144 t + 262143 and each [1, 16] table through its one whole block.  What point t writes back to an
  output is the body's result for that output, and the body's result at lane q depends only on lane q of the
  per-pair blocks and on the tables, so the write-back is block t of ONE function of the arrays as the region finds
  them; the 32 blocks tile the array, hence the array ends holding that function.
-/
import proofs.«402865_j56143812494147_3_alg».proof.Proof.Gen.KernelIdeal.Frame
import proofs.«402865_j56143812494147_3_alg».proof.Proof.KerBody
import Idealize.ShloMosaic.Lib.Pipeline.Value
import Idealize.ShloMosaic.Lib.ValueIdx

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The codes, first atom numbers and distances as the region finds them, and the three tables. -/
abbrev codes (c : Dev nD) : Vec Ideal S1x8388608 .i32 := V m c main_v10
abbrev atoms (c : Dev nD) : Vec Ideal S1x8388608 .i32 := V m c main_v11
abbrev dists (c : Dev nD) : Vec Ideal S1x8388608 .f32 := V m c main_v12
abbrev tabY (c : Dev nD) : Vec Ideal S1x16 .f32 := V m c main_v13
abbrev tabA (c : Dev nD) : Vec Ideal S1x16 .f32 := V m c main_v14
abbrev tabK (c : Dev nD) : Vec Ideal S1x16 .f32 := V m c main_v15

/-- The energy row: at every pair the formula of the table entries its code picks and of its scaled distance. -/
def repRow (c : Dev nD) : Vec Ideal S1x8388608 .f32 := fun i =>
  Repulsion.repExpLog (Body.pick (tabY m c) (codes m c i)) (Body.pick (tabA m c) (codes m c i))
    (Body.pick (tabK m c) (codes m c i)) (Repulsion.scaled (dists m c i))

/-- The molecule row: the first atom number divided by 64. -/
def molRow (c : Dev nD) : Vec Ideal S1x8388608 .i32 := fun i => BitVec.ofNat 32 ((atoms m c i).toNat / 64)

/-- The printed index maps, decided over the 32 points: a per-pair window's block index is (0, t), a table's (0, 0). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val
    ∧ win0_7.index t (0 : Fin 2) = 0 ∧ win0_7.index t (1 : Fin 2) = t.val :=
  (by decide +kernel : ∀ t : Fin grid0.N, _)

theorem N_32 : cfg0.N = 32 := N_0

/-- A per-pair input block at lane q of point t is the array at column 262144 t + q. -/
theorem iblk0_at (c : Dev nD) (t : Fin cfg0.N) (q : Fin 262144) (i : S1x8388608.Idx)
    (h0 : (i 0).val = 0) (h1 : (i 1).val = t.val * 262144 + q.val) :
    (iblk m c 0 t : Vec Ideal S1x262144 .i32) (ix2 (0 : Fin 1) q) = codes m c i := by
  obtain ⟨e00, e01, -⟩ := idx_facts t
  unfold iblk
  rw [View.read_apply]
  show V m c main_v10 _ = V m c main_v10 i
  congr 1
  funext a
  apply Fin.ext
  match a with
  | ⟨0, _⟩ => show win0_0.index t (0 : Fin 2) * 1 + 1 * 0 = (i 0).val; rw [e00, h0]
  | ⟨1, _⟩ => show win0_0.index t (1 : Fin 2) * 262144 + 1 * q.val = (i 1).val; rw [e01, h1]; omega

theorem iblk1_at (c : Dev nD) (t : Fin cfg0.N) (q : Fin 262144) (i : S1x8388608.Idx)
    (h0 : (i 0).val = 0) (h1 : (i 1).val = t.val * 262144 + q.val) :
    (iblk m c 1 t : Vec Ideal S1x262144 .i32) (ix2 (0 : Fin 1) q) = atoms m c i := by
  obtain ⟨-, -, e10, e11, -⟩ := idx_facts t
  unfold iblk
  rw [View.read_apply]
  show V m c main_v11 _ = V m c main_v11 i
  congr 1
  funext a
  apply Fin.ext
  match a with
  | ⟨0, _⟩ => show win0_1.index t (0 : Fin 2) * 1 + 1 * 0 = (i 0).val; rw [e10, h0]
  | ⟨1, _⟩ => show win0_1.index t (1 : Fin 2) * 262144 + 1 * q.val = (i 1).val; rw [e11, h1]; omega

theorem iblk2_at (c : Dev nD) (t : Fin cfg0.N) (q : Fin 262144) (i : S1x8388608.Idx)
    (h0 : (i 0).val = 0) (h1 : (i 1).val = t.val * 262144 + q.val) :
    (iblk m c 2 t : Vec Ideal S1x262144 .f32) (ix2 (0 : Fin 1) q) = dists m c i := by
  obtain ⟨-, -, -, -, e20, e21, -⟩ := idx_facts t
  unfold iblk
  rw [View.read_apply]
  show V m c main_v12 _ = V m c main_v12 i
  congr 1
  funext a
  apply Fin.ext
  match a with
  | ⟨0, _⟩ => show win0_2.index t (0 : Fin 2) * 1 + 1 * 0 = (i 0).val; rw [e20, h0]
  | ⟨1, _⟩ => show win0_2.index t (1 : Fin 2) * 262144 + 1 * q.val = (i 1).val; rw [e21, h1]; omega

/-- A table's one block is the whole table, at every point. -/
theorem iblk3_eq (c : Dev nD) (t : Fin cfg0.N) : (iblk m c 3 t : Vec Ideal S1x16 .f32) = tabY m c := by
  obtain ⟨-, -, -, -, -, -, e0, e1, -⟩ := idx_facts t
  unfold iblk
  funext y
  rw [View.read_apply]
  show V m c main_v13 _ = V m c main_v13 y
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 16 + 1 * (y 1).val = (y 1).val; rw [e1]; omega

theorem iblk4_eq (c : Dev nD) (t : Fin cfg0.N) : (iblk m c 4 t : Vec Ideal S1x16 .f32) = tabA m c := by
  obtain ⟨-, -, -, -, -, -, -, -, e0, e1, -⟩ := idx_facts t
  unfold iblk
  funext y
  rw [View.read_apply]
  show V m c main_v14 _ = V m c main_v14 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 16 + 1 * (y 1).val = (y 1).val; rw [e1]; omega

theorem iblk5_eq (c : Dev nD) (t : Fin cfg0.N) : (iblk m c 5 t : Vec Ideal S1x16 .f32) = tabK m c := by
  obtain ⟨-, -, -, -, -, -, -, -, -, -, e0, e1, -⟩ := idx_facts t
  unfold iblk
  funext y
  rw [View.read_apply]
  show V m c main_v15 _ = V m c main_v15 y
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 16 + 1 * (y 1).val = (y 1).val; rw [e1]; omega

/-- Lane q of an output block at point t sits at column 262144 t + q of its array. -/
theorem emb6 (t : Fin cfg0.N) (q : Fin 262144) :
    ((((cfg0.win 6).blk t).view.emb (ix2 (0 : Fin 1) q)) 0).val = 0
    ∧ ((((cfg0.win 6).blk t).view.emb (ix2 (0 : Fin 1) q)) 1).val = t.val * 262144 + q.val := by
  obtain ⟨-, -, -, -, -, -, -, -, -, -, -, -, e0, e1, -⟩ := idx_facts t
  constructor
  · show win0_6.index t (0 : Fin 2) * 1 + 1 * 0 = 0; rw [e0]
  · show win0_6.index t (1 : Fin 2) * 262144 + 1 * q.val = _; rw [e1]; omega

theorem emb7 (t : Fin cfg0.N) (q : Fin 262144) :
    ((((cfg0.win 7).blk t).view.emb (ix2 (0 : Fin 1) q)) 0).val = 0
    ∧ ((((cfg0.win 7).blk t).view.emb (ix2 (0 : Fin 1) q)) 1).val = t.val * 262144 + q.val := by
  obtain ⟨-, -, -, -, -, -, -, -, -, -, -, -, -, -, e0, e1⟩ := idx_facts t
  constructor
  · show win0_7.index t (0 : Fin 2) * 1 + 1 * 0 = 0; rw [e0]
  · show win0_7.index t (1 : Fin 2) * 262144 + 1 * q.val = _; rw [e1]; omega

/-- What point t writes back to the energy array is block t of the energy row. -/
theorem flushed6_eq (c : Dev nD) (t : Fin cfg0.N) :
    (dats m 0 c).flushed 6 t = ((cfg0.win 6).blk t).view.read (Elt Ideal) (repRow m c) := by
  show (cfg0.win 6).cut (grid0.coords t) ((dats m 0 c).after 6 t) = _
  rw [after0_6]
  funext j
  have hj0 : j 0 = (0 : Fin 1) := Fin.ext (Nat.lt_one_iff.mp (j 0).isLt)
  obtain ⟨q, rfl⟩ : ∃ q : Fin 262144, j = ix2 (0 : Fin 1) q := ⟨j 1, (eq_ix2 j).trans (by rw [hj0]; rfl)⟩
  rw [View.read_apply]
  obtain ⟨h0, h1⟩ := emb6 t q
  refine (Body.rep_at (iblk m c 0 t) (iblk m c 1 t) (iblk m c 2 t) (iblk m c 3 t) (iblk m c 4 t) (iblk m c 5 t) q).trans ?_
  rw [iblk3_eq, iblk4_eq, iblk5_eq, iblk0_at m c t q _ h0 h1, iblk2_at m c t q _ h0 h1]
  rfl

/-- What point t writes back to the molecule array is block t of the molecule row, the atom numbers being in range. -/
theorem flushed7_eq (c : Dev nD) (hat : ∀ i, (atoms m c i).toNat < 131072) (t : Fin cfg0.N) :
    (dats m 0 c).flushed 7 t = ((cfg0.win 7).blk t).view.read (Elt Ideal) (molRow m c) := by
  show (cfg0.win 7).cut (grid0.coords t) ((dats m 0 c).after 7 t) = _
  rw [after0_7]
  funext j
  have hj0 : j 0 = (0 : Fin 1) := Fin.ext (Nat.lt_one_iff.mp (j 0).isLt)
  obtain ⟨q, rfl⟩ : ∃ q : Fin 262144, j = ix2 (0 : Fin 1) q := ⟨j 1, (eq_ix2 j).trans (by rw [hj0]; rfl)⟩
  rw [View.read_apply]
  obtain ⟨h0, h1⟩ := emb7 t q
  have e := iblk1_at m c t q _ h0 h1
  refine (Body.mol_at (iblk m c 0 t) (iblk m c 1 t) (iblk m c 2 t) (iblk m c 3 t) (iblk m c 4 t) (iblk m c 5 t) q (by rw [e]; exact hat _)).trans ?_
  rw [e]
  rfl

/-- An index of a [1, 8388608] array lies in point t's block iff its column is one of the block's 262144. -/
theorem mem_blk6 (t : Fin cfg0.N) (i : S1x8388608.Idx) :
    i ∈ ((cfg0.win 6).blk t).view.set ↔ ∀ a : Fin 2, win0_6.index t a * S1x262144.size a ≤ (i a).val ∧ (i a).val < win0_6.index t a * S1x262144.size a + S1x262144.size a := by
  show i ∈ ((View.whole main_v16_0).slice (win0_6.rect t)).set ↔ _
  rw [View.set_slice_whole, Rect.mem_set_unit]
  exact Iff.rfl

theorem mem_blk7 (t : Fin cfg0.N) (i : S1x8388608.Idx) :
    i ∈ ((cfg0.win 7).blk t).view.set ↔ ∀ a : Fin 2, win0_7.index t a * S1x262144.size a ≤ (i a).val ∧ (i a).val < win0_7.index t a * S1x262144.size a + S1x262144.size a := by
  show i ∈ ((View.whole main_v16_1).slice (win0_7.rect t)).set ↔ _
  rw [View.set_slice_whole, Rect.mem_set_unit]
  exact Iff.rfl

/-- Column j lies in the block of point j / 262144: the 32 blocks tile the array. -/
theorem cover6 (i : S1x8388608.Idx) : ∃ t : Fin cfg0.N, (cfg0.win 6).flush t = true ∧ i ∈ ((cfg0.win 6).blk t).view.set := by
  have hi0 : (i 0).val < 1 := (i 0).isLt
  have hi1 : (i 1).val < 8388608 := (i 1).isLt
  have hN : cfg0.N = 32 := N_0
  let t : Fin cfg0.N := ⟨(i 1).val / 262144, by omega⟩
  obtain ⟨-, -, -, -, -, -, -, -, -, -, -, -, e0, e1, -⟩ := idx_facts t
  refine ⟨t, flush0_6 t, ?_⟩
  rw [mem_blk6]
  intro a
  match a with
  | ⟨0, _⟩ => show win0_6.index t (0 : Fin 2) * 1 ≤ (i 0).val ∧ (i 0).val < win0_6.index t (0 : Fin 2) * 1 + 1; rw [e0]; omega
  | ⟨1, _⟩ =>
    show win0_6.index t (1 : Fin 2) * 262144 ≤ (i 1).val ∧ (i 1).val < win0_6.index t (1 : Fin 2) * 262144 + 262144
    rw [e1]; show (i 1).val / 262144 * 262144 ≤ (i 1).val ∧ (i 1).val < (i 1).val / 262144 * 262144 + 262144; omega

theorem cover7 (i : S1x8388608.Idx) : ∃ t : Fin cfg0.N, (cfg0.win 7).flush t = true ∧ i ∈ ((cfg0.win 7).blk t).view.set := by
  have hi0 : (i 0).val < 1 := (i 0).isLt
  have hi1 : (i 1).val < 8388608 := (i 1).isLt
  have hN : cfg0.N = 32 := N_0
  let t : Fin cfg0.N := ⟨(i 1).val / 262144, by omega⟩
  obtain ⟨-, -, -, -, -, -, -, -, -, -, -, -, -, -, e0, e1⟩ := idx_facts t
  refine ⟨t, flush0_7 t, ?_⟩
  rw [mem_blk7]
  intro a
  match a with
  | ⟨0, _⟩ => show win0_7.index t (0 : Fin 2) * 1 ≤ (i 0).val ∧ (i 0).val < win0_7.index t (0 : Fin 2) * 1 + 1; rw [e0]; omega
  | ⟨1, _⟩ =>
    show win0_7.index t (1 : Fin 2) * 262144 ≤ (i 1).val ∧ (i 1).val < win0_7.index t (1 : Fin 2) * 262144 + 262144
    rw [e1]; show (i 1).val / 262144 * 262144 ≤ (i 1).val ∧ (i 1).val < (i 1).val / 262144 * 262144 + 262144; omega

/-- The energy array after the region is the energy row. -/
theorem final6 (c : Dev nD) : (dats m 0 c).arrAt 6 cfg0.N = repRow m c :=
  (dats m 0 c).arrAt_eq_of_cover 6 (repRow m c) (fun t _ => flushed6_eq m c t) cover6

/-- The molecule array after the region is the molecule row. -/
theorem final7 (c : Dev nD) (hat : ∀ i, (atoms m c i).toNat < 131072) : (dats m 0 c).arrAt 7 cfg0.N = molRow m c :=
  (dats m 0 c).arrAt_eq_of_cover 7 (molRow m c) (fun t _ => flushed7_eq m c hat t) cover7

end Cert.KernelIdeal.Region

end
-- ==== Proof.KerRun.lean ====
/-
  The kernel's program run to its result: after the region the energy and molecule arrays hold their rows, the host
  lines after the region flatten both and add every pair's energy into its molecule, and the arguments end unchanged.
-/
import proofs.«402865_j56143812494147_3_alg».proof.Proof.Gen.KernelIdeal.Frame
import proofs.«402865_j56143812494147_3_alg».proof.Proof.KerRegion
import Idealize.ShloMosaic.Lib.Pipeline.Value
import Idealize.ShloMosaic.Lib.StableHlo.Run

noncomputable section

namespace Cert.KernelIdeal.Run

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The energies summed into their molecules, from the two rows the region leaves. -/
def kerOut (c : Dev nD) : FVec Ideal S2048 .f32 :=
  Host.scatterAdd scatter_S2048_S8388608x1_S8388608_n_0_0_1
    (broadcastInDim S2048 ![] bcast_S_S2048 (constant S_ .f32 0x00000000#32))
    (broadcastInDim S8388608x1 ![0] bcast_S8388608_S8388608x1_0
      (shapeCast S8388608 (Region.molRow m c) shapeCasts_S1x8388608_S8388608))
    (shapeCast S8388608 (Region.repRow m c) shapeCasts_S1x8388608_S8388608)

/-- The host lines after the region, applied to the arrays the region leaves, give `kerOut`. -/
theorem tail_eq (c : Dev nD) (hat : ∀ i, (Region.atoms m c i).toNat < 131072) :
    Pipeline.afterTail₀ cfgs (dats m) 0 (V0 m) [hostOps1] c main_v21 = kerOut m c := by
  unfold Pipeline.afterTail₀
  show StableHlo.after hostOps1 _ (Proc.devRef .tc main_v21) = _
  after_results
  rw [show Pipeline.withArrays (cfgs 0).spec c (V0 m c) (fun w => (dats m 0 c).arrAt w (cfgs 0).N) (Proc.devRef .tc main_v16_1)
        = Region.molRow m c from
        (Pipeline.withArrays_arr spec0 launch0.win.arr_inj c _ _ 7).trans (Region.final7 m c hat),
    show Pipeline.withArrays (cfgs 0).spec c (V0 m c) (fun w => (dats m 0 c).arrAt w (cfgs 0).N) (Proc.devRef .tc main_v16_0)
        = Region.repRow m c from
        (Pipeline.withArrays_arr spec0 launch0.win.arr_inj c _ _ 6).trans (Region.final6 m c)]
  rfl

/-- From any memory with zero counters every weakly fair execution of @main terminates without a fault; the result
    holds `kerOut`, and the six arguments are unchanged — provided the first atom numbers the region is handed are in range. -/
theorem run_value (hat : ∀ c i, (Region.atoms m c i).toNat < 131072) :
    θ_run defs (onTc (τ := τ) (main (F := Ideal))) ⟨m, fun _ => 0, ρ⟩ (fun r => ∀ c : Dev nD,
      r.2.mem ((c.tc : Thread nD τ).loc main_v21) = kerOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v21 (Pipeline.mem_restRefs_of main_v21 (by decide) (by decide))).trans (tail_eq m c (hat c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Run

end
-- ==== Proof.KerTerm.lean ====
/-
  The host lines of the kernel's program that come before its one pipelined region, as functions of the argument
  arrays: what each window of the region is handed.

    flat E      the element table flattened to 131072 atoms;
    row0, row1  the two rows of the pair list;
    take x idx  jnp.take in fill mode: a negative index counted from the end, the table read there, and the most
                negative word in place of a read whose index falls outside the table;
    code E N    4 * (species of the first atom) + (species of the second), the species-pair code;
    opCode … opTab the region's operands: the codes, the first atom numbers and the distances as [1, P] rows, and a
                4 x 4 parameter table as a [1, 16] row.
-/
import proofs.«402865_j56143812494147_3_alg».proof.KernelIdeal

noncomputable section

namespace Cert.KernelIdeal.Stages

open Idealize.ShloMosaic Cert.KernelIdeal
open Cert.KernelIdeal.Facts₀ Cert.KernelIdeal.Facts

variable {F : FTy → Type} [FloatOps F] [Cert.KernelIdeal.Facts]

def flat (E : IVec S2048x64 32) : IVec S131072 32 := shapeCast S131072 E shapeCasts_S2048x64_S131072

def row0 (N : IVec S2x8388608 32) : IVec S8388608 32 :=
  shapeCast S8388608 (extractStridedSlice S1x8388608 ![0, 0] N slices_S2x8388608_S1x8388608_0_0) shapeCasts_S1x8388608_S8388608
def row1 (N : IVec S2x8388608 32) : IVec S8388608 32 :=
  shapeCast S8388608 (extractStridedSlice S1x8388608 ![1, 0] N slices_S2x8388608_S1x8388608_1_0) shapeCasts_S1x8388608_S8388608

/-- A scalar integer constant along the pair axis. -/
def splatI (b : BitVec 32) : IVec S8388608 32 := broadcastInDim S8388608 ![] bcast_S_S8388608 (constantI S_ 32 b)

/-- The indices with a negative one counted from the end of the 131072 atoms, as a [P, 1] column. -/
def wrapped (idx : IVec S8388608 32) : IVec S8388608x1 32 :=
  broadcastInDim S8388608x1 ![0] bcast_S8388608_S8388608x1_0
    (select (cmpi .slt idx (splatI 0#32)) (addi idx (splatI 131072#32)) idx)

/-- Which rows of the index column lie in [0, 131071]. -/
def inBounds (col : IVec S8388608x1 32) : IVec S8388608 1 :=
  Host.reduce IntOp.andi
    (andi (cmpi .sge col (broadcastInDim S8388608x1 ![] bcast_S_S8388608x1 (constantI S_ 32 0#32)))
      (cmpi .sle col (broadcastInDim S8388608x1 ![0, 1] bcast_S1x1_S8388608x1_0_1
        (broadcastInDim S1x1 ![1] bcast_S1_S1x1_1 (constantI S1 32 131071#32)))))
    (constantI S_ 1 1#1) reducesTo_S8388608x1_S8388608_d1 h_S_

def take (x : IVec S131072 32) (idx : IVec S8388608 32) : IVec S8388608 32 :=
  select (inBounds (wrapped idx)) (Host.gather gather_S131072_S8388608x1_S8388608_n_0_n_n_0_1_1 x (wrapped idx))
    (splatI 2147483648#32)

def code (E : IVec S2048x64 32) (N : IVec S2x8388608 32) : IVec S8388608 32 :=
  addi (muli (take (flat E) (row0 N)) (splatI 4#32)) (take (flat E) (row1 N))

def opCode (E : IVec S2048x64 32) (N : IVec S2x8388608 32) : IVec S1x8388608 32 :=
  shapeCast S1x8388608 (code E N) shapeCasts_S8388608_S1x8388608
def opAtom (N : IVec S2x8388608 32) : IVec S1x8388608 32 := shapeCast S1x8388608 (row0 N) shapeCasts_S8388608_S1x8388608
def opDist (D : FVec F S8388608 .f32) : FVec F S1x8388608 .f32 := shapeCast S1x8388608 D shapeCasts_S8388608_S1x8388608
def opTab (T : FVec F S4x4 .f32) : FVec F S1x16 .f32 := shapeCast S1x16 T shapeCasts_S4x4_S1x16

end Cert.KernelIdeal.Stages

end
-- ==== Proof.LibHostCalls.lean ====
/-
  Reading back host lines that came from a module-local function (a `func.call` such as jnp.take's `@_take` or jnp.clip's
  `@clip`, whose operations are the typed-reference builders `TRef.unary`, `TRef.binary`, …).

  A typed builder writes its result through `TRef.toBuf` and reads its operands through `TRef.ofBuf`, both casts along the
  reference's `ty_eq`.  A value passed from one operation of the function to the next is therefore wrapped
  `ofBuf (toBuf v)`: moved to the buffer's own type and back.  `cast_round` says such a round trip is the value, whatever
  the two equalities' proofs are, so `simp only [TRef.toBuf, TRef.ofBuf, cast_round]` cancels every pair syntactically,
  without looking at any buffer's type.  What is left afterwards is at most one cast around the whole result — removed by
  `refine eq_of_heq ((cast_heq _ _).trans (heq_of_eq ?_))` — and casts around the values read from the valuation, each
  rewritten by a local equation `∀ h, cast h (W b) = W b := fun _ => rfl` stated at the buffer's literal type.
  A long line is best read in parts, each from an arbitrary valuation, joined by the library's `StableHlo.after_append`.
-/
import Idealize.ShloMosaic.Lib.StableHlo.Run

noncomputable section

namespace HostCalls

open Idealize.ShloMosaic Idealize.ShloMosaic.StableHlo

/-- A value moved to another type along an equality and back is the value, whatever the two equalities' proofs. -/
theorem cast_round {A B : Type} (h1 : A = B) (h2 : B = A) (v : A) : cast h2 (cast h1 v) = v := by
  subst h1; rfl

end HostCalls

end
-- ==== Proof.KerPrefix.lean ====
/-
  The arrays the region is handed, as functions of the argument arrays: the host lines before the region (two
  flattening reshapes and slices, jnp.take twice, the code's arithmetic, six reshapes) folded over the launch contents.
-/
import proofs.«402865_j56143812494147_3_alg».proof.Proof.Gen.KernelIdeal.Frame
import proofs.«402865_j56143812494147_3_alg».proof.Proof.KerTerm
import proofs.«402865_j56143812494147_3_alg».proof.Proof.LibHostCalls
import Idealize.ShloMosaic.Lib.Pipeline.Value
import Idealize.ShloMosaic.Lib.StableHlo.Run

noncomputable section

namespace Cert.KernelIdeal.Prefix

open Cert.KernelIdeal Cert.KernelIdeal.Gen Idealize.ShloMosaic Idealize.ShloMosaic.TcCoe Idealize.SL.Sem
open Idealize.ShloMosaic.StableHlo

variable {F : FTy → Type} [FloatOps F]

/-! ### Each stretch of host lines, read from an arbitrary valuation `W`

The lines before the region come in four stretches: the flattening reshape and the two row slices; jnp.take of the
first atoms; jnp.take of the second atoms; the code's arithmetic and the six reshapes.  Each stretch writes only its own
lines' results, so what a later stretch reads of an earlier one is what the earlier one left there. -/

/-- A stretch leaves alone every buffer that is the result of none of its lines. -/
local macro "kept_by" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

section Stretches
variable (W : Valuation τ sig (Elt F))

/-! #### The flattening reshape and the two row slices -/

theorem s0_v0 : (after hostOps0 W (Proc.devRef .tc main_v0) : IVec S131072 32)
    = Stages.flat (W (Proc.devRef .tc main_arg0)) := by
  after_results
  rfl

theorem s0_v2 : (after hostOps0 W (Proc.devRef .tc main_v2) : IVec S8388608 32)
    = Stages.row0 (W (Proc.devRef .tc main_arg1)) := by
  after_results
  rfl

theorem s0_v4 : (after hostOps0 W (Proc.devRef .tc main_v4) : IVec S8388608 32)
    = Stages.row1 (W (Proc.devRef .tc main_arg1)) := by
  after_results
  rfl

theorem s0_arg2 : after hostOps0 W (Proc.devRef .tc main_arg2) = W (Proc.devRef .tc main_arg2) := by kept_by hostOps0
theorem s0_arg3 : after hostOps0 W (Proc.devRef .tc main_arg3) = W (Proc.devRef .tc main_arg3) := by kept_by hostOps0
theorem s0_arg4 : after hostOps0 W (Proc.devRef .tc main_arg4) = W (Proc.devRef .tc main_arg4) := by kept_by hostOps0
theorem s0_arg5 : after hostOps0 W (Proc.devRef .tc main_arg5) = W (Proc.devRef .tc main_arg5) := by kept_by hostOps0

/-! #### jnp.take of the first atoms

The twenty-two lines compose to the take of the flattened table at the first row: each line's value is substituted
into its readers; a value written through a typed reference and read back through it is the value; what is left is the
stage's own term, the two foldings over the elements (the conjunction along the unit axis, the gather) kept closed. -/

attribute [local irreducible] Host.reduce Host.gather in
set_option maxRecDepth 8192 in
set_option maxHeartbeats 2000000 in
theorem s1_v5 : (after hostOps0_1 W (Proc.devRef .tc main_v5) : IVec S8388608 32)
    = Stages.take (W (Proc.devRef .tc main_v0)) (W (Proc.devRef .tc main_v2)) := by
  after_results_simp
  simp only [TRef.toBuf, TRef.ofBuf, HostCalls.cast_round]
  rfl

theorem s1_v0 : after hostOps0_1 W (Proc.devRef .tc main_v0) = W (Proc.devRef .tc main_v0) := by kept_by hostOps0_1
theorem s1_v2 : after hostOps0_1 W (Proc.devRef .tc main_v2) = W (Proc.devRef .tc main_v2) := by kept_by hostOps0_1
theorem s1_v4 : after hostOps0_1 W (Proc.devRef .tc main_v4) = W (Proc.devRef .tc main_v4) := by kept_by hostOps0_1
theorem s1_arg2 : after hostOps0_1 W (Proc.devRef .tc main_arg2) = W (Proc.devRef .tc main_arg2) := by kept_by hostOps0_1
theorem s1_arg3 : after hostOps0_1 W (Proc.devRef .tc main_arg3) = W (Proc.devRef .tc main_arg3) := by kept_by hostOps0_1
theorem s1_arg4 : after hostOps0_1 W (Proc.devRef .tc main_arg4) = W (Proc.devRef .tc main_arg4) := by kept_by hostOps0_1
theorem s1_arg5 : after hostOps0_1 W (Proc.devRef .tc main_arg5) = W (Proc.devRef .tc main_arg5) := by kept_by hostOps0_1

/-! #### jnp.take of the second atoms: the same twenty-two lines at the second row -/

attribute [local irreducible] Host.reduce Host.gather in
set_option maxRecDepth 8192 in
set_option maxHeartbeats 2000000 in
theorem s2_v6 : (after hostOps0_2 W (Proc.devRef .tc main_v6) : IVec S8388608 32)
    = Stages.take (W (Proc.devRef .tc main_v0)) (W (Proc.devRef .tc main_v4)) := by
  after_results_simp
  simp only [TRef.toBuf, TRef.ofBuf, HostCalls.cast_round]
  rfl

theorem s2_v5 : after hostOps0_2 W (Proc.devRef .tc main_v5) = W (Proc.devRef .tc main_v5) := by kept_by hostOps0_2
theorem s2_v2 : after hostOps0_2 W (Proc.devRef .tc main_v2) = W (Proc.devRef .tc main_v2) := by kept_by hostOps0_2
theorem s2_arg2 : after hostOps0_2 W (Proc.devRef .tc main_arg2) = W (Proc.devRef .tc main_arg2) := by kept_by hostOps0_2
theorem s2_arg3 : after hostOps0_2 W (Proc.devRef .tc main_arg3) = W (Proc.devRef .tc main_arg3) := by kept_by hostOps0_2
theorem s2_arg4 : after hostOps0_2 W (Proc.devRef .tc main_arg4) = W (Proc.devRef .tc main_arg4) := by kept_by hostOps0_2
theorem s2_arg5 : after hostOps0_2 W (Proc.devRef .tc main_arg5) = W (Proc.devRef .tc main_arg5) := by kept_by hostOps0_2

/-! #### The code's arithmetic and the six reshapes -/

theorem s3_v10 : (after hostOps0_3 W (Proc.devRef .tc main_v10) : IVec S1x8388608 32)
    = shapeCast S1x8388608 (addi (muli (W (Proc.devRef .tc main_v5) : IVec S8388608 32) (Stages.splatI 4#32))
        (W (Proc.devRef .tc main_v6) : IVec S8388608 32)) Facts₀.shapeCasts_S8388608_S1x8388608 := by
  after_results
  rfl

theorem s3_v11 : (after hostOps0_3 W (Proc.devRef .tc main_v11) : IVec S1x8388608 32)
    = shapeCast S1x8388608 (W (Proc.devRef .tc main_v2) : IVec S8388608 32) Facts₀.shapeCasts_S8388608_S1x8388608 := by
  after_results
  rfl

theorem s3_v12 : (after hostOps0_3 W (Proc.devRef .tc main_v12) : FVec F S1x8388608 .f32)
    = Stages.opDist (W (Proc.devRef .tc main_arg2)) := by
  after_results
  rfl

theorem s3_v13 : (after hostOps0_3 W (Proc.devRef .tc main_v13) : FVec F S1x16 .f32)
    = Stages.opTab (W (Proc.devRef .tc main_arg3)) := by
  after_results
  rfl

theorem s3_v14 : (after hostOps0_3 W (Proc.devRef .tc main_v14) : FVec F S1x16 .f32)
    = Stages.opTab (W (Proc.devRef .tc main_arg4)) := by
  after_results
  rfl

theorem s3_v15 : (after hostOps0_3 W (Proc.devRef .tc main_v15) : FVec F S1x16 .f32)
    = Stages.opTab (W (Proc.devRef .tc main_arg5)) := by
  after_results
  rfl

end Stretches

/-! ### The four stretches in a row, from the launch contents -/

variable (m : (ℓ : Loc nD τ sig) → Buf (Elt F) ℓ)

/-- The contents the region finds are the four stretches run one after the other. -/
theorem V0_eq (c : Dev nD) :
    V0 m c = after hostOps0_3 (after hostOps0_2 (after hostOps0_1 (after hostOps0 (fun b => m (c, b))))) := by
  show after (List.flatten [hostOps0, hostOps0_1, hostOps0_2, hostOps0_3]) _ = _
  rw [List.flatten_cons, List.flatten_cons, List.flatten_cons, List.flatten_cons, List.flatten_nil, List.append_nil,
    after_append, after_append, after_append]

theorem V_v10 (c : Dev nD) :
    (V m c main_v10 : IVec S1x8388608 32)
      = Stages.opCode (m ((c : Thread nD τ).loc main_arg0)) (m ((c : Thread nD τ).loc main_arg1)) := by
  show V0 m c (Proc.devRef .tc main_v10) = _
  rw [V0_eq, s3_v10, s2_v6, s2_v5, s1_v5, s1_v0, s1_v4, s0_v0, s0_v2, s0_v4]
  rfl

theorem V_v11 (c : Dev nD) :
    (V m c main_v11 : IVec S1x8388608 32) = Stages.opAtom (m ((c : Thread nD τ).loc main_arg1)) := by
  show V0 m c (Proc.devRef .tc main_v11) = _
  rw [V0_eq, s3_v11, s2_v2, s1_v2, s0_v2]
  rfl

theorem V_v12 (c : Dev nD) :
    (V m c main_v12 : FVec F S1x8388608 .f32) = Stages.opDist (m ((c : Thread nD τ).loc main_arg2)) := by
  show V0 m c (Proc.devRef .tc main_v12) = _
  rw [V0_eq, s3_v12, s2_arg2, s1_arg2, s0_arg2]

theorem V_v13 (c : Dev nD) :
    (V m c main_v13 : FVec F S1x16 .f32) = Stages.opTab (m ((c : Thread nD τ).loc main_arg3)) := by
  show V0 m c (Proc.devRef .tc main_v13) = _
  rw [V0_eq, s3_v13, s2_arg3, s1_arg3, s0_arg3]

theorem V_v14 (c : Dev nD) :
    (V m c main_v14 : FVec F S1x16 .f32) = Stages.opTab (m ((c : Thread nD τ).loc main_arg4)) := by
  show V0 m c (Proc.devRef .tc main_v14) = _
  rw [V0_eq, s3_v14, s2_arg4, s1_arg4, s0_arg4]

theorem V_v15 (c : Dev nD) :
    (V m c main_v15 : FVec F S1x16 .f32) = Stages.opTab (m ((c : Thread nD τ).loc main_arg5)) := by
  show V0 m c (Proc.devRef .tc main_v15) = _
  rw [V0_eq, s3_v15, s2_arg5, s1_arg5, s0_arg5]

end Cert.KernelIdeal.Prefix

end
-- ==== Proof.KerHost.lean ====
/-
  The region's operands read at an index, on the domain where atom numbers and species codes are in range:
  there jnp.take's wrap of a negative index and its out-of-range fill never act, and its gather's clamp is the identity.
-/
import proofs.«402865_j56143812494147_3_alg».proof.Proof.KerTerm
import proofs.«402865_j56143812494147_3_alg».proof.Proof.Gen.KernelIdeal
import proofs.«402865_j56143812494147_3_alg».proof.Proof.Spec
import Idealize.ShloMosaic.Lib.Pipeline.Value
import Idealize.ShloMosaic.Lib.ValueIdx
import Idealize.ShloMosaic.Lib.StableHlo.Predicate

noncomputable section

namespace Cert.KernelIdeal.HostAt

open Idealize.ShloMosaic Idealize.ShloMosaic.ValueIdx Cert.KernelIdeal Cert.KernelIdeal.Stages
open Cert.KernelIdeal.Facts₀ Cert.KernelIdeal.Facts

/-! ### Two spellings of the same indices -/

/-- Row `q` of a one-column rectangle, spelt by its two coordinates. -/
theorem ixP_eq {n : Nat} (q : Fin n) : StableHlo.Predicate.ixP q = ix2 q (0 : Fin 1) := by
  funext a
  match a with
  | ⟨0, _⟩ => rfl
  | ⟨1, _⟩ => rfl

/-- Position `q` of a vector, spelt by its coordinate. -/
theorem ofFin_eq {n : Nat} (q : Fin n) : Shape.Idx.ofFin q = ix1 q := by
  funext a
  match a with
  | ⟨0, _⟩ => exact Fin.ext rfl

/-! ### Reshapes and row slices -/

/-- A vector of pairs kept as a one-row rectangle: column `p` of the row is entry `p`. -/
theorem asRow_at {α : Type} (v : S8388608.Idx → α) (p : Fin 8388608) :
    shapeCast S1x8388608 v shapeCasts_S8388608_S1x8388608 (ix2 (0 : Fin 1) p) = v (ix1 p) := by
  refine shapeCast_apply _ _ _ (ix1 p) ?_
  rw [Shape.rowMajor_val_one, Shape.rowMajor_val_two]
  show p.val = 0 * 8388608 + p.val
  omega

/-- The first row of the pair list: entry `p` is the first atom of pair `p`. -/
theorem row0_at (N : IVec S2x8388608 32) (p : Fin 8388608) : row0 N (ix1 p) = N (ix2 (0 : Fin 2) p) := by
  unfold row0
  refine (shapeCast_apply _ _ _ (ix2 (0 : Fin 1) p) ?_).trans ?_
  · rw [Shape.rowMajor_val_one, Shape.rowMajor_val_two]
    show 0 * 8388608 + p.val = p.val
    omega
  · refine extractStridedSlice_apply _ _ _ _ (ix2 (0 : Fin 2) p) fun a => ?_
    match a with
    | ⟨0, _⟩ => rfl
    | ⟨1, _⟩ => show p.val = 0 + p.val; omega

/-- The second row of the pair list: entry `p` is the second atom of pair `p`. -/
theorem row1_at (N : IVec S2x8388608 32) (p : Fin 8388608) : row1 N (ix1 p) = N (ix2 (1 : Fin 2) p) := by
  unfold row1
  refine (shapeCast_apply _ _ _ (ix2 (0 : Fin 1) p) ?_).trans ?_
  · rw [Shape.rowMajor_val_one, Shape.rowMajor_val_two]
    show 0 * 8388608 + p.val = p.val
    omega
  · refine extractStridedSlice_apply _ _ _ _ (ix2 (1 : Fin 2) p) fun a => ?_
    match a with
    | ⟨0, _⟩ => rfl
    | ⟨1, _⟩ => show p.val = 0 + p.val; omega

/-- The flattened element table: atom `n` sits at row `n / 64`, column `n % 64`. -/
theorem flat_at (E : IVec S2048x64 32) (n : Nat) (hn : n < 131072) :
    flat E (ix1 ⟨n, hn⟩) = E (ix2 (⟨n / 64, by omega⟩ : Fin 2048) (⟨n % 64, Nat.mod_lt _ (by decide)⟩ : Fin 64)) := by
  unfold flat
  refine shapeCast_apply _ _ _ (ix2 (⟨n / 64, by omega⟩ : Fin 2048) (⟨n % 64, Nat.mod_lt _ (by decide)⟩ : Fin 64)) ?_
  rw [Shape.rowMajor_val_one, Shape.rowMajor_val_two]
  show n / 64 * 64 + n % 64 = n
  omega

/-- For an atom number in range the flattened table holds the atom's species. -/
theorem flat_elem (E : IVec S2048x64 32) (w : BitVec 32) (hw : w.toNat < 131072) :
    flat E (ix1 ⟨w.toNat, hw⟩) = Repulsion.elemAt E w := by
  rw [flat_at]
  unfold Repulsion.elemAt
  refine congrArg E ?_
  have h2 : w.toNat / 64 % 2048 = w.toNat / 64 := Nat.mod_eq_of_lt (by omega)
  funext a
  match a with
  | ⟨0, _⟩ => exact Fin.ext h2.symm
  | ⟨1, _⟩ => rfl

/-! ### The take, piece by piece -/

/-- A scalar constant along the pair axis reads the constant everywhere. -/
theorem splatI_at (b : BitVec 32) (i : S8388608.Idx) : splatI b i = b := rfl

/-- A vector kept as a one-column rectangle: row `q` of the column is entry `q`. -/
theorem col_at {α : Type} (v : S8388608.Idx → α) (q : Fin 8388608) :
    broadcastInDim S8388608x1 ![0] bcast_S8388608_S8388608x1_0 v (ix2 q (0 : Fin 1)) = v (ix1 q) := by
  have e := StableHlo.Predicate.bcast_col1 bcast_S8388608_S8388608x1_0 v q
  rw [ixP_eq, ofFin_eq] at e
  exact e

/-- An index below 2^17 is not negative, so counting from the end leaves it as it is. -/
theorem wrapped_at (idx : IVec S8388608 32) (q : Fin 8388608) (hq : (idx (ix1 q)).toNat < 131072) :
    wrapped idx (ix2 q (0 : Fin 1)) = idx (ix1 q) := by
  unfold wrapped
  rw [col_at]
  have hc : IntOp.cmpi .slt (idx (ix1 q)) 0#32 = 0#1 := by
    apply eq_zero_of_ne_one
    intro h
    have h' := (StableHlo.Predicate.slt_iff_toNat (by omega) (by decide)).1 h
    have e0 : (0#32 : BitVec 32).toNat = 0 := rfl
    omega
  show Scalar.select (IntOp.cmpi .slt (idx (ix1 q)) 0#32) _ _ = _
  rw [hc, select_zero]

/-- A conjunction folded from 1 over ones is 1. -/
theorem foldl_andi_one {ι : Type} (f : ι → BitVec 1) (l : List ι) (hf : ∀ n ∈ l, f n = 1#1) :
    l.foldl (fun r n => IntOp.andi r (f n)) 1#1 = 1#1 := by
  induction l with
  | nil => rfl
  | cons a l ih =>
    have ha : IntOp.andi 1#1 (f a) = 1#1 := by rw [hf a List.mem_cons_self]; rfl
    simp only [List.foldl_cons, ha]
    exact ih fun n hn => hf n (List.mem_cons_of_mem _ hn)

/-- When every entry of the index column lies in [0, 131071] the in-bounds mask is 1 at every pair. -/
theorem inBounds_at (col : IVec S8388608x1 32) (hcol : ∀ i, (col i).toNat < 131072) (j : S8388608.Idx) :
    inBounds col j = 1#1 := by
  unfold inBounds
  rw [Host.reduce_eq_foldl]
  refine foldl_andi_one _ _ fun i _ => ?_
  show IntOp.andi (IntOp.cmpi .sge (col i) 0#32) (IntOp.cmpi .sle (col i) 131071#32) = 1#1
  have h := hcol i
  have e0 : (0#32 : BitVec 32).toNat = 0 := rfl
  have e1 : (131071#32 : BitVec 32).toNat = 131071 := rfl
  rw [(StableHlo.Predicate.sge_iff_toNat (by omega) (by omega)).2 (by omega),
    (StableHlo.Predicate.sle_iff_toNat (by omega) (by omega)).2 (by omega)]
  rfl

/-- The gather at pair `q` reads the table at the column's entry when that entry is in range: the clamp
    into [0, 131071] is then the identity. -/
theorem gather_at (x : IVec S131072 32) (col : IVec S8388608x1 32) (q : Fin 8388608) (n : Nat) (hn : n < 131072)
    (hq : (col (ix2 q (0 : Fin 1))).toNat = n) :
    Host.gather gather_S131072_S8388608x1_S8388608_n_0_n_n_0_1_1 x col (ix1 q) = x (ix1 ⟨n, hn⟩) := by
  have e := StableHlo.Predicate.gather_take gather_S131072_S8388608x1_S8388608_n_0_n_n_0_1_1 rfl rfl rfl rfl x col q
    (by decide)
  rw [ofFin_eq, ofFin_eq] at e
  refine e.trans (congrArg x (congrArg (fun k : Fin 131072 => (ix1 k : S131072.Idx)) (Fin.ext ?_)))
  show min (col (StableHlo.Predicate.ixP q)).toInt.toNat (131072 - 1) = n
  rw [ixP_eq, StableHlo.Predicate.toInt_eq_toNat_of_lt (by omega), Int.toNat_natCast]
  omega

/-- jnp.take in fill mode at an index vector whose entries are all in range: pair `p` reads the table at entry `p`. -/
theorem take_at (x : IVec S131072 32) (idx : IVec S8388608 32) (hidx : ∀ i, (idx i).toNat < 131072) (p : Fin 8388608) :
    take x idx (ix1 p) = x (ix1 ⟨(idx (ix1 p)).toNat, hidx _⟩) := by
  have hw : ∀ q : Fin 8388608, wrapped idx (ix2 q (0 : Fin 1)) = idx (ix1 q) := fun q => wrapped_at idx q (hidx _)
  have hcol : ∀ i, (wrapped idx i).toNat < 131072 := by
    intro i
    obtain ⟨a, b, rfl⟩ : ∃ (a : Fin 8388608) (b : Fin 1), i = ix2 a b := ⟨i 0, i 1, eq_ix2 i⟩
    obtain rfl : b = 0 := Subsingleton.elim _ _
    rw [hw]
    exact hidx _
  unfold take
  rw [select_apply, inBounds_at _ hcol, select_one]
  exact gather_at x (wrapped idx) p _ (hidx _) (by rw [hw])

/-! ### The four operands -/

/-- The pair code of pair `p`: four times the first atom's species plus the second's. -/
theorem win0_at (E : IVec S2048x64 32) (N : IVec S2x8388608 32)
    (hN : ∀ i, (N i).toNat < 131072) (p : Fin 8388608) :
    opCode E N (ix2 (0 : Fin 1) p)
      = Repulsion.elemAt E (Repulsion.atom0 N p) * 4#32 + Repulsion.elemAt E (Repulsion.atom1 N p) := by
  have h0 : ∀ i, (row0 N i).toNat < 131072 := fun i => by
    obtain ⟨a, rfl⟩ : ∃ a : Fin 8388608, i = ix1 a := ⟨i 0, eq_ix1 i⟩
    rw [row0_at]
    exact hN _
  have h1 : ∀ i, (row1 N i).toNat < 131072 := fun i => by
    obtain ⟨a, rfl⟩ : ∃ a : Fin 8388608, i = ix1 a := ⟨i 0, eq_ix1 i⟩
    rw [row1_at]
    exact hN _
  unfold opCode
  rw [asRow_at]
  show IntOp.addi (IntOp.muli (take (flat E) (row0 N) (ix1 p)) 4#32) (take (flat E) (row1 N) (ix1 p)) = _
  rw [take_at _ _ h0, take_at _ _ h1, flat_elem, flat_elem, row0_at, row1_at]
  rfl

theorem win1_at (N : IVec S2x8388608 32) (p : Fin 8388608) :
    opAtom N (ix2 (0 : Fin 1) p) = Repulsion.atom0 N p := by
  unfold opAtom
  rw [asRow_at, row0_at]
  rfl

theorem win2_at (D : FVec Ideal S8388608 .f32) (p : Fin 8388608) :
    opDist (F := Ideal) D (ix2 (0 : Fin 1) p) = D (ix1 p) := by
  unfold opDist
  exact asRow_at D p

/-- A 4 x 4 table laid out as a row of 16: entry (a, b) sits at column 4 a + b. -/
theorem winT_at (T : FVec Ideal S4x4 .f32) (a b : Fin 4) :
    opTab (F := Ideal) T (ix2 (0 : Fin 1) (⟨4 * a.val + b.val, by omega⟩ : Fin 16)) = T (ix2 a b) := by
  unfold opTab
  refine shapeCast_apply _ _ _ (ix2 a b) ?_
  rw [Shape.rowMajor_val_two, Shape.rowMajor_val_two]
  show a.val * 4 + b.val = 0 * 16 + (4 * a.val + b.val)
  omega

end Cert.KernelIdeal.HostAt

end
-- ==== Proof.PickTab.lean ====
/-
  The sixteen-way pick from a 4 x 4 table laid out as a row of 16, at the code 4 s0 + s1 of two species below 4,
  is the table's entry at (s0, s1).
-/
import proofs.«402865_j56143812494147_3_alg».proof.Proof.KerBody
import proofs.«402865_j56143812494147_3_alg».proof.Proof.KerHost
import proofs.«402865_j56143812494147_3_alg».proof.Proof.KerTerm
import proofs.«402865_j56143812494147_3_alg».proof.Proof.Spec
import proofs.«402865_j56143812494147_3_alg».proof.Proof.Gen.KernelIdeal

noncomputable section

namespace Cert.KernelIdeal.Body

open Idealize.ShloMosaic Idealize.ShloMosaic.ValueIdx Cert.KernelIdeal

/-- The code of two species below 4 is 4 s0 + s1 as a number: nothing wraps in 32 bits. -/
theorem code_toNat (s0 s1 : BitVec 32) (h0 : s0.toNat < 4) (h1 : s1.toNat < 4) :
    (s0 * 4#32 + s1).toNat = 4 * s0.toNat + s1.toNat := by
  have h4 : (4#32 : BitVec 32).toNat = 4 := by decide
  rw [BitVec.toNat_add, BitVec.toNat_mul, h4]
  omega

theorem pick_opTab (T : FVec Ideal S4x4 .f32) (s0 s1 : BitVec 32) (h0 : s0.toNat < 4) (h1 : s1.toNat < 4) :
    pick (Stages.opTab (F := Ideal) T) (s0 * 4#32 + s1) = Repulsion.tabAt T s0 s1 := by
  have hc := code_toNat s0 s1 h0 h1
  have hlt : (s0 * 4#32 + s1).toNat < 16 := by rw [hc]; omega
  -- the column the code names is column 4 s0 + s1, and a species below 4 is its own residue mod 4
  have i1 : (⟨(s0 * 4#32 + s1).toNat, hlt⟩ : Fin 16) = ⟨4 * s0.toNat + s1.toNat, by omega⟩ := Fin.ext hc
  have i2 : (⟨s0.toNat % 4, Nat.mod_lt _ (by decide)⟩ : Fin 4) = ⟨s0.toNat, h0⟩ := Fin.ext (Nat.mod_eq_of_lt h0)
  have i3 : (⟨s1.toNat % 4, Nat.mod_lt _ (by decide)⟩ : Fin 4) = ⟨s1.toNat, h1⟩ := Fin.ext (Nat.mod_eq_of_lt h1)
  have e := HostAt.winT_at T ⟨s0.toNat, h0⟩ ⟨s1.toNat, h1⟩
  unfold pick
  rw [dif_pos hlt]
  unfold Repulsion.tabAt
  refine (congrArg (fun j : Fin 16 => Stages.opTab (F := Ideal) T (ix2 (0 : Fin 1) j)) i1).trans ?_
  refine e.trans ?_
  exact (congrArg₂ (fun a b : Fin 4 => T (ix2 a b)) i2 i3).symm

end Cert.KernelIdeal.Body

end
-- ==== Proof.SpecLaws.lean ====
/-
  The two spellings of the pair energy agree where the distance and the exponent are real numbers: the clamped,
  scaled distance d = max(x, 1e-7) * bohr is then a positive real, for which d ^ k = exp (log d * k); and the
  negation spelt 0 - a is -a.
-/
import proofs.«402865_j56143812494147_3_alg».proof.Proof.Spec
import Idealize.ShloMosaic.PureOps.Ideal
import Mathlib.Analysis.SpecialFunctions.Pow.Real

noncomputable section

namespace Repulsion

open Idealize.ShloMosaic

/-- The lower clamp is a normal f32 with sign bit clear: significand 14073749 at exponent -47. -/
theorem cMin_eq : cMin = ((14073749 / 140737488355328 : ℝ) : EReal) := by
  show Ideal.ofBits .f32 0x33D6BF95#32 = _
  simp [Ideal.ofBits, Ideal.ieee, -EReal.coe_mul]; norm_num

/-- The length factor is a normal f32 with sign bit clear: significand 15852172 at exponent -23. -/
theorem cBohr_eq : cBohr = ((15852172 / 8388608 : ℝ) : EReal) := by
  show Ideal.ofBits .f32 0x3FF1E28C#32 = _
  simp [Ideal.ofBits, Ideal.ieee, -EReal.coe_mul]; norm_num

/-- The f32 pattern of all zero bits is the number zero. -/
theorem cZero_eq : cZero = 0 := by
  show Ideal.ofBits .f32 0x00000000#32 = _
  simp [Ideal.ofBits, Ideal.ieee]

/-- The larger of two reals, taken among the extended reals, is the real maximum. -/
theorem coe_max_real (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- A real distance, clamped from below by a positive real and scaled by a positive real, is a positive real. -/
theorem scaled_pos_real (x : EReal) (hx : ∃ r : ℝ, x = (r : EReal)) :
    ∃ d : ℝ, 0 < d ∧ scaled x = (d : EReal) := by
  obtain ⟨r, rfl⟩ := hx
  refine ⟨max r (14073749 / 140737488355328) * (15852172 / 8388608),
    mul_pos (lt_max_of_lt_right (by norm_num)) (by norm_num), ?_⟩
  unfold scaled
  rw [cMin_eq, cBohr_eq, coe_max_real, ← EReal.coe_mul]

/-- For a positive real d and a real k, exp (k * log d) is the power d ^ k. -/
theorem exp_mul_log_eq_pow (d k : ℝ) (hd : 0 < d) :
    Ideal.exp ((k : EReal) * Ideal.log (d : EReal)) = Ideal.pow (d : EReal) (k : EReal) := by
  rw [Ideal.log_coe, if_neg (not_le.2 hd), ← EReal.coe_mul, Ideal.exp_coe, Ideal.pow_coe_coe]
  refine congrArg (fun t : ℝ => (t : EReal)) ?_
  show Real.exp (k * Real.log d) = d ^ k
  rw [Real.rpow_def_of_pos hd, mul_comm]

theorem repExpLog_eq_repPow (y a k x : EReal) (hx : ∃ r : ℝ, x = (r : EReal)) (hk : ∃ r : ℝ, k = (r : EReal)) :
    repExpLog y a k (scaled x) = repPow y a k (scaled x) := by
  obtain ⟨d, hd, ed⟩ := scaled_pos_real x hx
  obtain ⟨kr, rfl⟩ := hk
  have hz : cZero - a = -a := by rw [cZero_eq, zero_sub]
  rw [ed]
  unfold repExpLog repPow
  rw [hz, exp_mul_log_eq_pow d kr hd]

end Repulsion

end
-- ==== Proof.Bridge.lean ====
/-
  The kernel's two rows are the specification's arrays, on the domain: the pair code 4 s0 + s1 picks from a table
  laid out as a row of 16 the entry at (s0, s1); the distance is a real, so the formula with the power spelt
  exp (k log d) is the one with d ^ k; and the molecule is the first atom's number divided by 64.
-/
import proofs.«402865_j56143812494147_3_alg».proof.Proof.KerRun
import proofs.«402865_j56143812494147_3_alg».proof.Proof.KerPrefix
import proofs.«402865_j56143812494147_3_alg».proof.Proof.KerHost
import proofs.«402865_j56143812494147_3_alg».proof.Proof.PickTab
import proofs.«402865_j56143812494147_3_alg».proof.Proof.SpecLaws
import proofs.«402865_j56143812494147_3_alg».proof.Proof.Spec
import Idealize.ShloMosaic.Lib.Pipeline.Value
import Idealize.ShloMosaic.Lib.ValueIdx

noncomputable section

namespace Cert.KernelIdeal.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The six argument arrays as launched. -/
abbrev aE (c : Dev nD) : IVec S2048x64 32 := m ((c : Thread nD τ).loc main_arg0)
abbrev aN (c : Dev nD) : IVec S2x8388608 32 := m ((c : Thread nD τ).loc main_arg1)
abbrev aD (c : Dev nD) : FVec Ideal S8388608 .f32 := m ((c : Thread nD τ).loc main_arg2)
abbrev aY (c : Dev nD) : FVec Ideal S4x4 .f32 := m ((c : Thread nD τ).loc main_arg3)
abbrev aA (c : Dev nD) : FVec Ideal S4x4 .f32 := m ((c : Thread nD τ).loc main_arg4)
abbrev aK (c : Dev nD) : FVec Ideal S4x4 .f32 := m ((c : Thread nD τ).loc main_arg5)

/-- A one-row rectangle flattened: entry p is column p of the row. -/
theorem asVec_at {α : Type} (v : S1x8388608.Idx → α) (p : Fin 8388608) :
    shapeCast S8388608 v shapeCasts_S1x8388608_S8388608 (ix1 p) = v (ix2 (0 : Fin 1) p) := by
  refine shapeCast_apply _ _ _ (ix2 (0 : Fin 1) p) ?_
  rw [Shape.rowMajor_val_one, Shape.rowMajor_val_two]
  show 0 * 8388608 + p.val = p.val
  omega

theorem idx_row (i : S1x8388608.Idx) : ∃ p : Fin 8388608, i = ix2 (0 : Fin 1) p :=
  ⟨i 1, (eq_ix2 i).trans (by rw [show i 0 = (0 : Fin 1) from Fin.ext (Nat.lt_one_iff.mp (i 0).isLt)]; rfl)⟩

/-- The first atom numbers the region is handed are in range. -/
theorem atoms_lt (c : Dev nD) (h : Repulsion.Dom (aE m c) (aN m c) (aD m c) (aK m c)) (i : S1x8388608.Idx) :
    (Region.atoms m c i).toNat < 131072 := by
  obtain ⟨p, rfl⟩ := idx_row i
  show (V m c main_v11 (ix2 (0 : Fin 1) p) : BitVec 32).toNat < 131072
  rw [Prefix.V_v11, HostAt.win1_at]
  exact h.atom _

/-- The energy row at pair p is the specification's energy of pair p. -/
theorem repRow_at (c : Dev nD) (h : Repulsion.Dom (aE m c) (aN m c) (aD m c) (aK m c)) (p : Fin 8388608) :
    Region.repRow m c (ix2 (0 : Fin 1) p)
      = Repulsion.repArr (aE m c) (aN m c) (aD m c) (aY m c) (aA m c) (aK m c) (ix1 p) := by
  show Repulsion.repExpLog (Body.pick (V m c main_v13) (V m c main_v10 (ix2 (0 : Fin 1) p)))
      (Body.pick (V m c main_v14) (V m c main_v10 (ix2 (0 : Fin 1) p)))
      (Body.pick (V m c main_v15) (V m c main_v10 (ix2 (0 : Fin 1) p)))
      (Repulsion.scaled (V m c main_v12 (ix2 (0 : Fin 1) p))) = _
  have hs0 : (Repulsion.elemAt (aE m c) (Repulsion.atom0 (aN m c) p)).toNat < 4 := h.elem _
  have hs1 : (Repulsion.elemAt (aE m c) (Repulsion.atom1 (aN m c) p)).toNat < 4 := h.elem _
  have hd : ∃ r : ℝ, aD m c (ix1 p) = (r : EReal) := h.dist _
  have hk : ∃ r : ℝ, Repulsion.tabAt (aK m c) (Repulsion.elemAt (aE m c) (Repulsion.atom0 (aN m c) p))
      (Repulsion.elemAt (aE m c) (Repulsion.atom1 (aN m c) p)) = (r : EReal) := h.expo _
  rw [Prefix.V_v10, Prefix.V_v12, Prefix.V_v13, Prefix.V_v14, Prefix.V_v15, HostAt.win0_at _ _ h.atom, HostAt.win2_at,
    Body.pick_opTab _ _ _ hs0 hs1, Body.pick_opTab _ _ _ hs0 hs1, Body.pick_opTab _ _ _ hs0 hs1,
    Repulsion.repExpLog_eq_repPow _ _ _ _ hd hk]
  rfl

/-- The molecule row at pair p is the specification's molecule of pair p. -/
theorem molRow_at (c : Dev nD) (p : Fin 8388608) :
    Region.molRow m c (ix2 (0 : Fin 1) p) = Repulsion.molArr (aN m c) (ix1 p) := by
  show BitVec.ofNat 32 ((V m c main_v11 (ix2 (0 : Fin 1) p) : BitVec 32).toNat / 64) = _
  rw [Prefix.V_v11, HostAt.win1_at]
  rfl

/-- The energy row, flattened, is the specification's energy array. -/
theorem rep_flat (c : Dev nD) (h : Repulsion.Dom (aE m c) (aN m c) (aD m c) (aK m c)) :
    shapeCast S8388608 (Region.repRow m c) shapeCasts_S1x8388608_S8388608
      = Repulsion.repArr (aE m c) (aN m c) (aD m c) (aY m c) (aA m c) (aK m c) := by
  funext i
  obtain ⟨p, rfl⟩ : ∃ p : Fin 8388608, i = ix1 p := ⟨i 0, eq_ix1 i⟩
  rw [asVec_at]
  exact repRow_at m c h p

/-- The molecule row, flattened, is the specification's molecule array. -/
theorem mol_flat (c : Dev nD) :
    shapeCast S8388608 (Region.molRow m c) shapeCasts_S1x8388608_S8388608 = Repulsion.molArr (aN m c) := by
  funext i
  obtain ⟨p, rfl⟩ : ∃ p : Fin 8388608, i = ix1 p := ⟨i 0, eq_ix1 i⟩
  rw [asVec_at]
  exact molRow_at m c p

end Cert.KernelIdeal.Bridge

end
-- ==== Proof.RefTerm.lean ====
/-
  The host program that computes the pair energies directly, one definition per stage of its computation, each a
  function of the six argument arrays (element table E, pair list N, distances D, parameter tables Y, A, K):

    dist      the distances clamped below at 1e-7 and scaled to bohr;
    species   the element table flattened and read at every atom number of the pair list (a negative number
              counted from the end, as array indexing does), giving a [2, P] array of species codes;
    sp0, sp1  its two rows;
    pairIdx   the [P, 2] array of (sp0, sp1), each again normalised for a negative value;
    tab T     a 4 x 4 table read at pairIdx;
    rep       (y / d) * exp(-a * d^k) * cutoff(d);
    mol       the first atom number floor-divided by 64;
    out       the energies summed into their molecules.
-/
import proofs.«402865_j56143812494147_3_alg».proof.ReferenceIdeal

noncomputable section

namespace Cert.ReferenceIdeal.Stages

open Idealize.ShloMosaic Cert.ReferenceIdeal
open Cert.ReferenceIdeal.Facts₀ Cert.ReferenceIdeal.Facts

variable {F : FTy → Type} [FloatOps F] [Cert.ReferenceIdeal.Facts]

/-- A scalar float constant along the pair axis. -/
def splatF (b : BitVec 32) : FVec F S8388608 .f32 := broadcastInDim S8388608 ![] bcast_S_S8388608 (constant S_ .f32 b)
/-- A scalar integer constant along the pair axis. -/
def splatI (b : BitVec 32) : IVec S8388608 32 := broadcastInDim S8388608 ![] bcast_S_S8388608 (constantI S_ 32 b)

def dist (D : FVec F S8388608 .f32) : FVec F S8388608 .f32 :=
  mulf (maximumf (broadcastInDim S8388608 ![] bcast_S_S8388608 (id (constant S_ .f32 0x33D6BF95#32))) D) (splatF 0x3FF1E28C#32)

/-- The pair list with a negative atom number counted from the end of the 131072 atoms. -/
def atoms (N : IVec S2x8388608 32) : IVec S2x8388608 32 :=
  select (cmpi .slt N (broadcastInDim S2x8388608 ![] bcast_S_S2x8388608 (constantI S_ 32 0#32)))
    (addi N (broadcastInDim S2x8388608 ![] bcast_S_S2x8388608 (constantI S_ 32 131072#32))) N

def species (E : IVec S2048x64 32) (N : IVec S2x8388608 32) : IVec S2x8388608 32 :=
  Host.gather gather_S131072_S2x8388608x1_S2x8388608_n_0_n_n_0_2_1 (shapeCast S131072 E shapeCasts_S2048x64_S131072)
    (broadcastInDim S2x8388608x1 ![0, 1] bcast_S2x8388608_S2x8388608x1_0_1 (atoms N))

def sp0 (E : IVec S2048x64 32) (N : IVec S2x8388608 32) : IVec S8388608 32 :=
  shapeCast S8388608 (extractStridedSlice S1x8388608 ![0, 0] (species E N) slices_S2x8388608_S1x8388608_0_0) shapeCasts_S1x8388608_S8388608
def sp1 (E : IVec S2048x64 32) (N : IVec S2x8388608 32) : IVec S8388608 32 :=
  shapeCast S8388608 (extractStridedSlice S1x8388608 ![1, 0] (species E N) slices_S2x8388608_S1x8388608_1_0) shapeCasts_S1x8388608_S8388608

/-- A species code with a negative value counted from the end of the 4 species. -/
def wrap4 (s : IVec S8388608 32) : IVec S8388608 32 := select (cmpi .slt s (splatI 0#32)) (addi s (splatI 4#32)) s

def pairIdx (E : IVec S2048x64 32) (N : IVec S2x8388608 32) : IVec S8388608x2 32 :=
  concatenate S8388608x2 1
    [⟨S8388608x1, broadcastInDim S8388608x1 ![0] bcast_S8388608_S8388608x1_0 (wrap4 (sp0 E N))⟩,
     ⟨S8388608x1, broadcastInDim S8388608x1 ![0] bcast_S8388608_S8388608x1_0 (wrap4 (sp1 E N))⟩]
    concatenates_S8388608x1_S8388608x1_S8388608x2_d1

def tab (T : FVec F S4x4 .f32) (E : IVec S2048x64 32) (N : IVec S2x8388608 32) : FVec F S8388608 .f32 :=
  Host.gather gather_S4x4_S8388608x2_S8388608_n_01_n_n_01_1_11 T (pairIdx E N)

/-- The smooth cutoff of every scaled distance. -/
def cutoff (d : FVec F S8388608 .f32) : FVec F S8388608 .f32 :=
  select (cmpf .olt d (splatF 0x411D39A8#32))
    (Host.exp (subf (splatF 0x3F800000#32)
      (Host.divf (splatF 0x3F800000#32)
        (maximumf (subf (splatF 0x3F800000#32) (mulf (Host.divf d (splatF 0x411D39A8#32)) (Host.divf d (splatF 0x411D39A8#32))))
          (splatF 0x2EDBE6FF#32)))))
    (splatF 0x00000000#32)

def rep (E : IVec S2048x64 32) (N : IVec S2x8388608 32) (D : FVec F S8388608 .f32) (Y A K : FVec F S4x4 .f32) :
    FVec F S8388608 .f32 :=
  mulf (mulf (Host.divf (tab Y E N) (dist D)) (Host.exp (mulf (Host.negf (tab A E N)) (Host.powf (dist D) (tab K E N)))))
    (cutoff (dist D))

/-- The first row of the pair list. -/
def first (N : IVec S2x8388608 32) : IVec S8388608 32 :=
  shapeCast S8388608 (extractStridedSlice S1x8388608 ![0, 0] N slices_S2x8388608_S1x8388608_0_0) shapeCasts_S1x8388608_S8388608

/-- Floor division of the first atom numbers by 64: the truncated quotient, less one where the signs differ and
    the remainder is not zero. -/
def mol (N : IVec S2x8388608 32) : IVec S8388608 32 :=
  select
    (andi
      (cmpi .ne (signi (first N)) (broadcastInDim S8388608 ![] bcast_S_S8388608 (signi (id (constantI S_ 32 64#32)))))
      (cmpi .ne (Host.remsi (first N) (broadcastInDim S8388608 ![] bcast_S_S8388608 (id (constantI S_ 32 64#32)))) (splatI 0#32)))
    (subi (Host.divsi (first N) (broadcastInDim S8388608 ![] bcast_S_S8388608 (id (constantI S_ 32 64#32)))) (splatI 1#32))
    (Host.divsi (first N) (broadcastInDim S8388608 ![] bcast_S_S8388608 (id (constantI S_ 32 64#32))))

def out (E : IVec S2048x64 32) (N : IVec S2x8388608 32) (D : FVec F S8388608 .f32) (Y A K : FVec F S4x4 .f32) :
    FVec F S2048 .f32 :=
  Host.scatterAdd scatter_S2048_S8388608x1_S8388608_n_0_0_1
    (broadcastInDim S2048 ![] bcast_S_S2048 (constant S_ .f32 0x00000000#32))
    (broadcastInDim S8388608x1 ![0] bcast_S8388608_S8388608x1_0 (mol N))
    (rep E N D Y A K)

end Cert.ReferenceIdeal.Stages

end
-- ==== Proof.RefRun.lean ====
/-
  The direct host program's run: @main is a straight line of host operations (its four outlined functions' lines
  listed at their call sites), so every weakly fair execution terminates with each buffer at the operations' fold
  over the launch contents; the result buffer then holds the stages' composed term `Stages.out` of the six arguments,
  and the arguments are unchanged.

  The line is cut into nine stretches, one per stage of the computation. The contents after the first k stretches are
  `valK`; what a later stretch reads of them is stated once per buffer — the stage's term of the six arguments for a
  buffer a stretch computes, the earlier statement again for a buffer a stretch leaves alone — so that every equation
  is a computation over one stretch only.
-/
import proofs.«402865_j56143812494147_3_alg».proof.Proof.RefTerm
import proofs.«402865_j56143812494147_3_alg».proof.Proof.Gen.ReferenceIdeal
import proofs.«402865_j56143812494147_3_alg».proof.Proof.LibHostCalls
import Idealize.ShloMosaic.Lib.StableHlo.Run

noncomputable section

namespace Cert.ReferenceIdeal.RefRun

open Idealize.ShloMosaic Idealize.ShloMosaic.StableHlo Idealize.SL.Sem Cert.ReferenceIdeal

variable {F : FTy → Type} [FloatOps F]

/-! ## The operations -/

section Ops

open Cert.ReferenceIdeal.Facts₀

/-- Two columns of indices side by side: the index pairs a table is read at. A named function, so that an equation
    about either column reaches it as a plain argument. -/
def pair2 (a b : IVec S8388608x1 32) : IVec S8388608x2 32 :=
  concatenate S8388608x2 1 [⟨S8388608x1, a⟩, ⟨S8388608x1, b⟩] concatenates_S8388608x1_S8388608x1_S8388608x2_d1

/-- The distances: the lower bound 1e-7 (a scalar constant, converted and broadcast inside the clamp function), the
    maximum, the scaling to bohr. -/
abbrev w1 : List (HloOp τ sig (Elt F)) :=
  [ nullary main_cst (constant S_ .f32 0x33D6BF95#32),
    TRef.unary (.of main_cst : TRef sig ⟨S_, .f32⟩) main_call0.v0 id,
    TRef.unary main_call0.v0 main_call0.v1 (broadcastInDim S8388608 ![] bcast_S_S8388608),
    TRef.binary main_call0.v1 (.of main_arg2 : TRef sig ⟨S8388608, .f32⟩) main_call0.v2 maximumf,
    nullary main_cst_0 (constant S_ .f32 0x3FF1E28C#32),
    unary main_cst_0 main_v1 (broadcastInDim S8388608 ![] bcast_S_S8388608),
    binary main_v0 main_v1 main_v2 mulf ]

/-- The species of every atom of the pair list: the element table flattened, the atom numbers normalised, the gather,
    and its two rows. -/
abbrev w2 : List (HloOp τ sig (Elt F)) :=
  [ reshape main_arg0 main_v3 rfl shapeCasts_S2048x64_S131072,
    nullary main_c (constantI S_ 32 0#32),
    unary main_c main_v4 (broadcastInDim S2x8388608 ![] bcast_S_S2x8388608),
    binary main_arg1 main_v4 main_v5 (cmpi .slt),
    nullary main_c_1 (constantI S_ 32 131072#32),
    unary main_c_1 main_v6 (broadcastInDim S2x8388608 ![] bcast_S_S2x8388608),
    binary main_arg1 main_v6 main_v7 addi,
    ternary main_v5 main_v7 main_arg1 main_v8 select,
    unary main_v8 main_v9 (broadcastInDim S2x8388608x1 ![0, 1] bcast_S2x8388608_S2x8388608x1_0_1),
    binary main_v3 main_v9 main_v10 (fun x i => Host.gather gather_S131072_S2x8388608x1_S2x8388608_n_0_n_n_0_2_1 x i),
    unary main_v10 main_v11 (extractStridedSlice S1x8388608 ![0, 0] · slices_S2x8388608_S1x8388608_0_0),
    reshape main_v11 main_v12 rfl shapeCasts_S1x8388608_S8388608,
    unary main_v10 main_v13 (extractStridedSlice S1x8388608 ![1, 0] · slices_S2x8388608_S1x8388608_1_0),
    reshape main_v13 main_v14 rfl shapeCasts_S1x8388608_S8388608 ]

/-- The first parameter table read at the species pair: both species normalised, stacked into index pairs, the
    gather. -/
abbrev w3 : List (HloOp τ sig (Elt F)) :=
  [ nullary main_c_2 (constantI S_ 32 0#32),
    unary main_c_2 main_v15 (broadcastInDim S8388608 ![] bcast_S_S8388608),
    binary main_v12 main_v15 main_v16 (cmpi .slt),
    nullary main_c_3 (constantI S_ 32 4#32),
    unary main_c_3 main_v17 (broadcastInDim S8388608 ![] bcast_S_S8388608),
    binary main_v12 main_v17 main_v18 addi,
    ternary main_v16 main_v18 main_v12 main_v19 select,
    nullary main_c_4 (constantI S_ 32 0#32),
    unary main_c_4 main_v20 (broadcastInDim S8388608 ![] bcast_S_S8388608),
    binary main_v14 main_v20 main_v21 (cmpi .slt),
    nullary main_c_5 (constantI S_ 32 4#32),
    unary main_c_5 main_v22 (broadcastInDim S8388608 ![] bcast_S_S8388608),
    binary main_v14 main_v22 main_v23 addi,
    ternary main_v21 main_v23 main_v14 main_v24 select,
    unary main_v19 main_v25 (broadcastInDim S8388608x1 ![0] bcast_S8388608_S8388608x1_0),
    unary main_v24 main_v26 (broadcastInDim S8388608x1 ![0] bcast_S8388608_S8388608x1_0),
    binary main_v25 main_v26 main_v27 pair2,
    binary main_arg3 main_v27 main_v28 (fun x i => Host.gather gather_S4x4_S8388608x2_S8388608_n_01_n_n_01_1_11 x i) ]

/-- The second parameter table read at the species pair, computed anew from the two rows of species. -/
abbrev w4 : List (HloOp τ sig (Elt F)) :=
  [ nullary main_c_6 (constantI S_ 32 0#32),
    unary main_c_6 main_v29 (broadcastInDim S8388608 ![] bcast_S_S8388608),
    binary main_v12 main_v29 main_v30 (cmpi .slt),
    nullary main_c_7 (constantI S_ 32 4#32),
    unary main_c_7 main_v31 (broadcastInDim S8388608 ![] bcast_S_S8388608),
    binary main_v12 main_v31 main_v32 addi,
    ternary main_v30 main_v32 main_v12 main_v33 select,
    nullary main_c_8 (constantI S_ 32 0#32),
    unary main_c_8 main_v34 (broadcastInDim S8388608 ![] bcast_S_S8388608),
    binary main_v14 main_v34 main_v35 (cmpi .slt),
    nullary main_c_9 (constantI S_ 32 4#32),
    unary main_c_9 main_v36 (broadcastInDim S8388608 ![] bcast_S_S8388608),
    binary main_v14 main_v36 main_v37 addi,
    ternary main_v35 main_v37 main_v14 main_v38 select,
    unary main_v33 main_v39 (broadcastInDim S8388608x1 ![0] bcast_S8388608_S8388608x1_0),
    unary main_v38 main_v40 (broadcastInDim S8388608x1 ![0] bcast_S8388608_S8388608x1_0),
    binary main_v39 main_v40 main_v41 pair2,
    binary main_arg4 main_v41 main_v42 (fun x i => Host.gather gather_S4x4_S8388608x2_S8388608_n_01_n_n_01_1_11 x i) ]

/-- The third parameter table read at the species pair, computed anew from the two rows of species. -/
abbrev w5 : List (HloOp τ sig (Elt F)) :=
  [ nullary main_c_10 (constantI S_ 32 0#32),
    unary main_c_10 main_v43 (broadcastInDim S8388608 ![] bcast_S_S8388608),
    binary main_v12 main_v43 main_v44 (cmpi .slt),
    nullary main_c_11 (constantI S_ 32 4#32),
    unary main_c_11 main_v45 (broadcastInDim S8388608 ![] bcast_S_S8388608),
    binary main_v12 main_v45 main_v46 addi,
    ternary main_v44 main_v46 main_v12 main_v47 select,
    nullary main_c_12 (constantI S_ 32 0#32),
    unary main_c_12 main_v48 (broadcastInDim S8388608 ![] bcast_S_S8388608),
    binary main_v14 main_v48 main_v49 (cmpi .slt),
    nullary main_c_13 (constantI S_ 32 4#32),
    unary main_c_13 main_v50 (broadcastInDim S8388608 ![] bcast_S_S8388608),
    binary main_v14 main_v50 main_v51 addi,
    ternary main_v49 main_v51 main_v14 main_v52 select,
    unary main_v47 main_v53 (broadcastInDim S8388608x1 ![0] bcast_S8388608_S8388608x1_0),
    unary main_v52 main_v54 (broadcastInDim S8388608x1 ![0] bcast_S8388608_S8388608x1_0),
    binary main_v53 main_v54 main_v55 pair2,
    binary main_arg5 main_v55 main_v56 (fun x i => Host.gather gather_S4x4_S8388608x2_S8388608_n_01_n_n_01_1_11 x i) ]

/-- The pair energy before the cutoff: (y / d) * exp (-a * d ^ k). -/
abbrev w6 : List (HloOp τ sig (Elt F)) :=
  [ binary main_v28 main_v2 main_v57 Host.divf,
    unary main_v42 main_v58 Host.negf,
    binary main_v2 main_v56 main_v59 Host.powf,
    binary main_v58 main_v59 main_v60 mulf,
    unary main_v60 main_v61 Host.exp,
    binary main_v57 main_v61 main_v62 mulf ]

/-- The smooth cutoff of the distance (the select is the outlined function's one line) and its product with the
    energy. -/
abbrev w7 : List (HloOp τ sig (Elt F)) :=
  [ nullary main_cst_14 (constant S_ .f32 0x411D39A8#32),
    unary main_cst_14 main_v63 (broadcastInDim S8388608 ![] bcast_S_S8388608),
    binary main_v2 main_v63 main_v64 Host.divf,
    binary main_v64 main_v64 main_v65 mulf,
    nullary main_cst_15 (constant S_ .f32 0x3F800000#32),
    unary main_cst_15 main_v66 (broadcastInDim S8388608 ![] bcast_S_S8388608),
    binary main_v66 main_v65 main_v67 subf,
    nullary main_cst_16 (constant S_ .f32 0x2EDBE6FF#32),
    unary main_cst_16 main_v68 (broadcastInDim S8388608 ![] bcast_S_S8388608),
    binary main_v67 main_v68 main_v69 maximumf,
    nullary main_cst_17 (constant S_ .f32 0x3F800000#32),
    unary main_cst_17 main_v70 (broadcastInDim S8388608 ![] bcast_S_S8388608),
    binary main_v70 main_v69 main_v71 Host.divf,
    nullary main_cst_18 (constant S_ .f32 0x3F800000#32),
    unary main_cst_18 main_v72 (broadcastInDim S8388608 ![] bcast_S_S8388608),
    binary main_v72 main_v71 main_v73 subf,
    nullary main_cst_19 (constant S_ .f32 0x411D39A8#32),
    unary main_cst_19 main_v74 (broadcastInDim S8388608 ![] bcast_S_S8388608),
    binary main_v2 main_v74 main_v75 (cmpf .olt),
    unary main_v73 main_v76 Host.exp,
    nullary main_cst_20 (constant S_ .f32 0x00000000#32),
    unary main_cst_20 main_v77 (broadcastInDim S8388608 ![] bcast_S_S8388608),
    TRef.ternary (.of main_v75 : TRef sig ⟨S8388608, .i1⟩) (.of main_v76 : TRef sig ⟨S8388608, .f32⟩) (.of main_v77 : TRef sig ⟨S8388608, .f32⟩) main_call1.v0 select,
    binary main_v62 main_v78 main_v79 mulf ]

/-- The molecule of each pair: the first row of the pair list floor-divided by 64 (the outlined function's lines, the
    select of its own callee last). -/
abbrev w8 : List (HloOp τ sig (Elt F)) :=
  [ unary main_arg1 main_v80 (extractStridedSlice S1x8388608 ![0, 0] · slices_S2x8388608_S1x8388608_0_0),
    reshape main_v80 main_v81 rfl shapeCasts_S1x8388608_S8388608,
    nullary main_c_21 (constantI S_ 32 64#32),
    TRef.unary (.of main_c_21 : TRef sig ⟨S_, .i32⟩) main_call2.v0 id,
    TRef.unary main_call2.v0 main_call2.v1 (broadcastInDim S8388608 ![] bcast_S_S8388608),
    TRef.binary (.of main_v81 : TRef sig ⟨S8388608, .i32⟩) main_call2.v1 main_call2.v2 Host.divsi,
    TRef.unary (.of main_v81 : TRef sig ⟨S8388608, .i32⟩) main_call2.v3 signi,
    TRef.unary main_call2.v0 main_call2.v4 signi,
    TRef.unary main_call2.v4 main_call2.v5 (broadcastInDim S8388608 ![] bcast_S_S8388608),
    TRef.binary main_call2.v3 main_call2.v5 main_call2.v6 (cmpi .ne),
    TRef.unary main_call2.v0 main_call2.v7 (broadcastInDim S8388608 ![] bcast_S_S8388608),
    TRef.binary (.of main_v81 : TRef sig ⟨S8388608, .i32⟩) main_call2.v7 main_call2.v8 Host.remsi,
    TRef.nullary main_call2.c (constantI S_ 32 0#32),
    TRef.unary main_call2.c main_call2.v9 (broadcastInDim S8388608 ![] bcast_S_S8388608),
    TRef.binary main_call2.v8 main_call2.v9 main_call2.v10 (cmpi .ne),
    TRef.binary main_call2.v6 main_call2.v10 main_call2.v11 andi,
    TRef.nullary main_call2.c_0 (constantI S_ 32 1#32),
    TRef.unary main_call2.c_0 main_call2.v12 (broadcastInDim S8388608 ![] bcast_S_S8388608),
    TRef.binary main_call2.v2 main_call2.v12 main_call2.v13 subi,
    TRef.ternary main_call2.v11 main_call2.v13 main_call2.v2 main_call2.call0.v0 select ]

/-- The sum of the pair energies into their molecules, over a zero array. -/
abbrev w9 : List (HloOp τ sig (Elt F)) :=
  [ nullary main_cst_22 (constant S_ .f32 0x00000000#32),
    unary main_cst_22 main_v83 (broadcastInDim S2048 ![] bcast_S_S2048),
    unary main_v82 main_v84 (broadcastInDim S8388608x1 ![0] bcast_S8388608_S8388608x1_0),
    ternary main_v83 main_v84 main_v79 main_v85 (fun x i u => Host.scatterAdd scatter_S2048_S8388608x1_S8388608_n_0_0_1 x i u) ]

/-- @main's operations in order, the calls unfolded: the nine stretches one after the other. -/
abbrev ops : List (HloOp τ sig (Elt F)) := w1 ++ (w2 ++ (w3 ++ (w4 ++ (w5 ++ (w6 ++ (w7 ++ (w8 ++ w9)))))))

/-! ### Every operation touches TensorCore references only -/

theorem w1_sub : (w1 : List (HloOp τ sig (Elt F))).Forall fun op => op.bufs ⊆ tcRefs τ sig :=
  ⟨nullary_bufs_sub .., unary_bufs_sub .., unary_bufs_sub .., binary_bufs_sub .., nullary_bufs_sub .., unary_bufs_sub ..,
    binary_bufs_sub ..⟩

theorem w2_sub : (w2 : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., reshape_bufs_sub ..,
    unary_bufs_sub .., reshape_bufs_sub ..⟩

theorem w3_sub : (w3 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., binary_bufs_sub ..⟩

theorem w4_sub : (w4 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., binary_bufs_sub ..⟩

theorem w5_sub : (w5 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., binary_bufs_sub ..⟩

theorem w6_sub : (w6 : List (HloOp τ sig (Elt F))).Forall fun op => op.bufs ⊆ tcRefs τ sig :=
  ⟨binary_bufs_sub .., unary_bufs_sub .., binary_bufs_sub .., binary_bufs_sub .., unary_bufs_sub .., binary_bufs_sub ..⟩

theorem w7_sub : (w7 : List (HloOp τ sig (Elt F))).Forall fun op => op.bufs ⊆ tcRefs τ sig :=
  ⟨nullary_bufs_sub .., unary_bufs_sub .., binary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., unary_bufs_sub .., nullary_bufs_sub .., unary_bufs_sub .., ternary_bufs_sub .., binary_bufs_sub ..⟩

theorem w8_sub : (w8 : List (HloOp τ sig (Elt F))).Forall fun op => op.bufs ⊆ tcRefs τ sig :=
  ⟨unary_bufs_sub .., reshape_bufs_sub .., nullary_bufs_sub .., unary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub ..⟩

theorem w9_sub : (w9 : List (HloOp τ sig (Elt F))).Forall fun op => op.bufs ⊆ tcRefs τ sig :=
  ⟨nullary_bufs_sub .., unary_bufs_sub .., unary_bufs_sub .., ternary_bufs_sub ..⟩

/-- A property of every element of two lists is one of every element of their concatenation. -/
theorem forall_append {α : Type} {p : α → Prop} {l₁ l₂ : List α} (h₁ : l₁.Forall p) (h₂ : l₂.Forall p) :
    (l₁ ++ l₂).Forall p := by
  rw [List.forall_iff_forall_mem] at *
  intro x hx
  rcases List.mem_append.mp hx with h | h
  exacts [h₁ x h, h₂ x h]

theorem ops_sub : (ops : List (HloOp τ sig (Elt F))).Forall fun op => op.bufs ⊆ tcRefs τ sig :=
  forall_append w1_sub (forall_append w2_sub (forall_append w3_sub (forall_append w4_sub (forall_append w5_sub
    (forall_append w6_sub (forall_append w7_sub (forall_append w8_sub w9_sub)))))))

/-! ### @main is the line -/

-- one hundred and twenty-nine binds re-associated: the rewriting under the chain recurses once per statement
set_option maxRecDepth 4096 in
/-- @main is that straight line: its two windows in sequence, the functions' definitions unfolded at their calls and the
    records at their fields; both sides are one chain of steps once sequencing is reassociated, and the named pairing
    function is its body. -/
theorem main_eq (c : Dev nD) : main (F := F) c = seq ops := by
  simp only [ops, seq_append, w1, w2, w3, w4, w5, w6, w7, w8, w9, main, main_part0, main_part1, fn_clip.body, fn_where.body,
    fn_where_0.body, fn_floor_divide.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main on the TensorCores terminates, and every
    final state has each TensorCore buffer at the operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

end Ops

/-! ## The fold, stretch by stretch -/

section Values

open Cert.ReferenceIdeal.Facts₀

variable (V0 : Valuation τ sig (Elt F))

local notation "E₀" => V0 (Proc.tc.devRef main_arg0)
local notation "N₀" => V0 (Proc.tc.devRef main_arg1)
local notation "D₀" => V0 (Proc.tc.devRef main_arg2)
local notation "Y₀" => V0 (Proc.tc.devRef main_arg3)
local notation "A₀" => V0 (Proc.tc.devRef main_arg4)
local notation "K₀" => V0 (Proc.tc.devRef main_arg5)

/-- The device's buffer contents after the first stretch, from contents `V0`. -/
def val1 : Valuation τ sig (Elt F) := after w1 V0
/-- … after the first two stretches. -/
def val2 : Valuation τ sig (Elt F) := after w2 (val1 V0)
/-- … after the first three. -/
def val3 : Valuation τ sig (Elt F) := after w3 (val2 V0)
/-- … after the first four. -/
def val4 : Valuation τ sig (Elt F) := after w4 (val3 V0)
/-- … after the first five. -/
def val5 : Valuation τ sig (Elt F) := after w5 (val4 V0)
/-- … after the first six. -/
def val6 : Valuation τ sig (Elt F) := after w6 (val5 V0)
/-- … after the first seven. -/
def val7 : Valuation τ sig (Elt F) := after w7 (val6 V0)
/-- … after the first eight. -/
def val8 : Valuation τ sig (Elt F) := after w8 (val7 V0)
/-- … after all nine: the contents @main ends with. -/
def val9 : Valuation τ sig (Elt F) := after w9 (val8 V0)

-- the gathers, the scatter-add and the concatenation stay folded: no equation below looks inside them, and their
-- bodies are searches and sums over the operands' elements
attribute [local irreducible] Host.gather Host.scatterAdd concatenate

/-! Each equation: the stretch's fold read at the buffer (each operation's result at its own buffer is its function's
    value, at any other buffer what was there), a value passed between two lines of an outlined function moved to the
    buffer's type and back (the round trip is the value), the earlier stretches' equations for what the stretch reads,
    and then the two sides agree by computation: the casts left are along equations between equal literal types. -/

theorem val1_v2 : val1 V0 (no_index (Proc.devRef .tc main_v2)) = Stages.dist D₀ := by
  unfold val1; simp only [w1]; after_results_simp
  simp only [TRef.toBuf, TRef.ofBuf, HostCalls.cast_round]
  rfl
theorem val1_arg0 : val1 V0 (no_index (Proc.devRef .tc main_arg0)) = E₀ := by
  simp only [val1, w1]; after_results_simp
theorem val1_arg1 : val1 V0 (no_index (Proc.devRef .tc main_arg1)) = N₀ := by
  simp only [val1, w1]; after_results_simp

theorem val2_v12 : val2 V0 (no_index (Proc.devRef .tc main_v12)) = Stages.sp0 E₀ N₀ := by
  unfold val2; simp only [w2]; after_results_simp
  simp only [val1_arg0, val1_arg1]
  rfl
theorem val2_v14 : val2 V0 (no_index (Proc.devRef .tc main_v14)) = Stages.sp1 E₀ N₀ := by
  unfold val2; simp only [w2]; after_results_simp
  simp only [val1_arg0, val1_arg1]
  rfl
theorem val2_arg3 : val2 V0 (no_index (Proc.devRef .tc main_arg3)) = Y₀ := by
  simp only [val2, val1, w2, w1]; after_results_simp

theorem val3_v28 : val3 V0 (no_index (Proc.devRef .tc main_v28)) = Stages.tab Y₀ E₀ N₀ := by
  unfold val3; simp only [w3]; after_results_simp
  simp only [val2_v12, val2_v14, val2_arg3]
  rfl
theorem val3_v12 : val3 V0 (no_index (Proc.devRef .tc main_v12)) = Stages.sp0 E₀ N₀ := by
  simp only [val3, w3]; after_results_simp; exact val2_v12 V0
theorem val3_v14 : val3 V0 (no_index (Proc.devRef .tc main_v14)) = Stages.sp1 E₀ N₀ := by
  simp only [val3, w3]; after_results_simp; exact val2_v14 V0
theorem val3_arg4 : val3 V0 (no_index (Proc.devRef .tc main_arg4)) = A₀ := by
  simp only [val3, val2, val1, w3, w2, w1]; after_results_simp

theorem val4_v42 : val4 V0 (no_index (Proc.devRef .tc main_v42)) = Stages.tab A₀ E₀ N₀ := by
  unfold val4; simp only [w4]; after_results_simp
  simp only [val3_v12, val3_v14, val3_arg4]
  rfl
theorem val4_v12 : val4 V0 (no_index (Proc.devRef .tc main_v12)) = Stages.sp0 E₀ N₀ := by
  simp only [val4, w4]; after_results_simp; exact val3_v12 V0
theorem val4_v14 : val4 V0 (no_index (Proc.devRef .tc main_v14)) = Stages.sp1 E₀ N₀ := by
  simp only [val4, w4]; after_results_simp; exact val3_v14 V0
theorem val4_arg5 : val4 V0 (no_index (Proc.devRef .tc main_arg5)) = K₀ := by
  simp only [val4, val3, val2, val1, w4, w3, w2, w1]; after_results_simp

theorem val5_v56 : val5 V0 (no_index (Proc.devRef .tc main_v56)) = Stages.tab K₀ E₀ N₀ := by
  unfold val5; simp only [w5]; after_results_simp
  simp only [val4_v12, val4_v14, val4_arg5]
  rfl
theorem val5_v2 : val5 V0 (no_index (Proc.devRef .tc main_v2)) = Stages.dist D₀ := by
  simp only [val5, val4, val3, val2, w5, w4, w3, w2]; after_results_simp; exact val1_v2 V0
theorem val5_v28 : val5 V0 (no_index (Proc.devRef .tc main_v28)) = Stages.tab Y₀ E₀ N₀ := by
  simp only [val5, val4, w5, w4]; after_results_simp; exact val3_v28 V0
theorem val5_v42 : val5 V0 (no_index (Proc.devRef .tc main_v42)) = Stages.tab A₀ E₀ N₀ := by
  simp only [val5, w5]; after_results_simp; exact val4_v42 V0

/-- The pair energy before the cutoff: (y / d) * exp (-a * d ^ k) over the stages' tables and distances. -/
def bare (E : IVec S2048x64 32) (N : IVec S2x8388608 32) (D : FVec F S8388608 .f32) (Y A K : FVec F S4x4 .f32) :
    FVec F S8388608 .f32 :=
  mulf (Host.divf (Stages.tab Y E N) (Stages.dist D))
    (Host.exp (mulf (Host.negf (Stages.tab A E N)) (Host.powf (Stages.dist D) (Stages.tab K E N))))

theorem val6_v62 : val6 V0 (no_index (Proc.devRef .tc main_v62)) = bare E₀ N₀ D₀ Y₀ A₀ K₀ := by
  unfold val6; simp only [w6]; after_results_simp
  simp only [val5_v2, val5_v28, val5_v42, val5_v56]
  rfl
theorem val6_v2 : val6 V0 (no_index (Proc.devRef .tc main_v2)) = Stages.dist D₀ := by
  simp only [val6, w6]; after_results_simp; exact val5_v2 V0

theorem val7_v79 : val7 V0 (no_index (Proc.devRef .tc main_v79)) = Stages.rep E₀ N₀ D₀ Y₀ A₀ K₀ := by
  unfold val7; simp only [w7]; after_results_simp
  simp only [TRef.toBuf, TRef.ofBuf, HostCalls.cast_round]
  simp only [val6_v2, val6_v62]
  rfl
theorem val7_arg1 : val7 V0 (no_index (Proc.devRef .tc main_arg1)) = N₀ := by
  simp only [val7, val6, val5, val4, val3, val2, val1, w7, w6, w5, w4, w3, w2, w1]; after_results_simp

theorem val8_v82 : val8 V0 (no_index (Proc.devRef .tc main_v82)) = Stages.mol N₀ := by
  unfold val8; simp only [w8]; after_results_simp
  simp only [TRef.toBuf, TRef.ofBuf, HostCalls.cast_round]
  simp only [val7_arg1]
  rfl
theorem val8_v79 : val8 V0 (no_index (Proc.devRef .tc main_v79)) = Stages.rep E₀ N₀ D₀ Y₀ A₀ K₀ := by
  simp only [val8, w8]; after_results_simp; exact val7_v79 V0

/-- The result buffer ends at the stages' composed term of the six arguments. -/
theorem val9_v85 : val9 V0 (no_index (Proc.devRef .tc main_v85)) = Stages.out E₀ N₀ D₀ Y₀ A₀ K₀ := by
  unfold val9; simp only [w9]; after_results_simp
  simp only [val8_v79, val8_v82]
  rfl

/-! No operation writes an argument: each ends as it began. -/

theorem val9_arg0 : val9 V0 (no_index (Proc.devRef .tc main_arg0)) = E₀ := by
  simp only [val9, val8, val7, val6, val5, val4, val3, val2, val1, w9, w8, w7, w6, w5, w4, w3, w2, w1]; after_results_simp
theorem val9_arg1 : val9 V0 (no_index (Proc.devRef .tc main_arg1)) = N₀ := by
  simp only [val9, val8, val7, val6, val5, val4, val3, val2, val1, w9, w8, w7, w6, w5, w4, w3, w2, w1]; after_results_simp
theorem val9_arg2 : val9 V0 (no_index (Proc.devRef .tc main_arg2)) = D₀ := by
  simp only [val9, val8, val7, val6, val5, val4, val3, val2, val1, w9, w8, w7, w6, w5, w4, w3, w2, w1]; after_results_simp
theorem val9_arg3 : val9 V0 (no_index (Proc.devRef .tc main_arg3)) = Y₀ := by
  simp only [val9, val8, val7, val6, val5, val4, val3, val2, val1, w9, w8, w7, w6, w5, w4, w3, w2, w1]; after_results_simp
theorem val9_arg4 : val9 V0 (no_index (Proc.devRef .tc main_arg4)) = A₀ := by
  simp only [val9, val8, val7, val6, val5, val4, val3, val2, val1, w9, w8, w7, w6, w5, w4, w3, w2, w1]; after_results_simp
theorem val9_arg5 : val9 V0 (no_index (Proc.devRef .tc main_arg5)) = K₀ := by
  simp only [val9, val8, val7, val6, val5, val4, val3, val2, val1, w9, w8, w7, w6, w5, w4, w3, w2, w1]; after_results_simp

/-- The fold of two lines one after the other is the second's over the first's. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- The whole line's fold is the ninth contents. -/
theorem after_ops : after ops V0 = val9 V0 := by
  simp only [ops, after_append, val9, val8, val7, val6, val5, val4, val3, val2, val1]

end Values

/-- From any memory with zero counters every weakly fair execution of @main terminates without a fault; the result
    holds the energies as the stages compute them from the launch contents of the six arguments, which are unchanged. -/
theorem run_out (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v85)
          = Stages.out (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨(h c main_v85).trans ((congrFun (after_ops _) _).trans (val9_v85 _)),
       (h c main_arg0).trans ((congrFun (after_ops _) _).trans (val9_arg0 _)),
       (h c main_arg1).trans ((congrFun (after_ops _) _).trans (val9_arg1 _)),
       (h c main_arg2).trans ((congrFun (after_ops _) _).trans (val9_arg2 _)),
       (h c main_arg3).trans ((congrFun (after_ops _) _).trans (val9_arg3 _)),
       (h c main_arg4).trans ((congrFun (after_ops _) _).trans (val9_arg4 _)),
       (h c main_arg5).trans ((congrFun (after_ops _) _).trans (val9_arg5 _))⟩)
    (run_main m ρ)

end Cert.ReferenceIdeal.RefRun

end
-- ==== Proof.RefValue.lean ====
/-
  The direct host program's stages read at a pair, on the domain where atom numbers and species codes are in range:
  there the wrap of a negative index never acts and a gather's clamp is the identity, so the species are the element
  table's entries at the two atoms, each parameter is its table's entry at the two species, and the molecule is the
  first atom's number divided by 64.
-/
import proofs.«402865_j56143812494147_3_alg».proof.Proof.RefTerm
import proofs.«402865_j56143812494147_3_alg».proof.Proof.Gen.ReferenceIdeal
import proofs.«402865_j56143812494147_3_alg».proof.Proof.Spec
import Idealize.ShloMosaic.Lib.Pipeline.Value
import Idealize.ShloMosaic.Lib.ValueIdx
import Idealize.ShloMosaic.Lib.StableHlo.Predicate

noncomputable section

namespace Cert.ReferenceIdeal.RefValue

open Idealize.ShloMosaic Idealize.ShloMosaic.ValueIdx Cert.ReferenceIdeal

open Cert.ReferenceIdeal.Facts₀ Cert.ReferenceIdeal.Facts

/-! ## Constants along the pair axis, the clamped distance and the cutoff, read at a pair -/

theorem splatI_apply (b : BitVec 32) (i : S8388608.Idx) : Stages.splatI b i = b := rfl

theorem splatF_apply (b : BitVec 32) (i : S8388608.Idx) : Stages.splatF (F := Ideal) b i = Ideal.ofBits .f32 b := rfl

/-- The clamped, scaled distance: the two operands of the maximum are written in the other order. -/
theorem dist_apply (D : FVec Ideal S8388608 .f32) (i : S8388608.Idx) :
    Stages.dist D i = Repulsion.scaled (D i) := by
  show max (Ideal.ofBits .f32 0x33D6BF95#32) (D i) * Ideal.ofBits .f32 0x3FF1E28C#32 = _
  unfold Repulsion.scaled
  rw [max_comm]

theorem cutoff_apply (d : FVec Ideal S8388608 .f32) (i : S8388608.Idx) :
    Stages.cutoff d i = Repulsion.cut (d i) := rfl

/-! ## Words: a wrap of a negative index that never acts, a clamp that is the identity -/

/-- A word below 2^31 is not negative: the signed comparison with zero is the bit 0. -/
theorem slt_zero_of_small (n : BitVec 32) (h : n.toNat < 2 ^ 31) : IntOp.cmpi .slt n 0#32 = 0#1 := by
  apply eq_zero_of_ne_one
  intro hc
  have hlt := (StableHlo.Predicate.slt_iff_toNat h (by decide)).mp hc
  exact absurd hlt (by simp)

/-- So "add the extent where negative" returns the word itself. -/
theorem wrap_small (n c : BitVec 32) (h : n.toNat < 2 ^ 31) :
    Scalar.select (IntOp.cmpi .slt n 0#32) (IntOp.addi n c) n = n := by
  rw [slt_zero_of_small n h, select_zero]

/-- A word below 2^31 read signed, then as a natural number, is its unsigned value. -/
theorem toInt_toNat_small (n : BitVec 32) (h : n.toNat < 2 ^ 31) : n.toInt.toNat = n.toNat := by
  rw [StableHlo.Predicate.toInt_eq_toNat_of_lt h, Int.toNat_natCast]

theorem atoms_apply (N : IVec S2x8388608 32) (hN : ∀ i, (N i).toNat < 131072) (j : S2x8388608.Idx) :
    Stages.atoms N j = N j := by
  show Scalar.select (IntOp.cmpi .slt (N j) 0#32) (IntOp.addi (N j) 131072#32) (N j) = N j
  exact wrap_small _ _ (by have := hN j; omega)

theorem wrap4_apply (s : IVec S8388608 32) (i : S8388608.Idx) (h : (s i).toNat < 4) :
    Stages.wrap4 s i = s i := by
  show Scalar.select (IntOp.cmpi .slt (s i) 0#32) (IntOp.addi (s i) 4#32) (s i) = s i
  exact wrap_small _ _ (by omega)

/-! ## Layout: a row of a two-row array, the flattened element table, a column of a pair of columns -/

/-- Row 0 of a [2, P] array, as a [P] array, at p. -/
theorem row0_apply {α : Type} (X : S2x8388608.Idx → α) (hs : S2x8388608.Slices ![0, 0] S1x8388608)
    (hc : S1x8388608.ShapeCasts S8388608) (p : Fin 8388608) :
    shapeCast S8388608 (extractStridedSlice S1x8388608 ![0, 0] X hs) hc (ix1 p) = X (ix2 (0 : Fin 2) p) := by
  refine (shapeCast_apply _ hc (ix1 p) (ix2 (0 : Fin 1) p) ?_).trans ?_
  · rw [Shape.rowMajor_val_two, Shape.rowMajor_val_one]
    show 0 * 8388608 + p.val = p.val
    omega
  · refine extractStridedSlice_apply _ X hs (ix2 (0 : Fin 1) p) (ix2 (0 : Fin 2) p) (fun a => ?_)
    match a with
    | ⟨0, _⟩ => rfl
    | ⟨1, _⟩ => exact (Nat.zero_add _).symm

/-- Row 1 of a [2, P] array, as a [P] array, at p. -/
theorem row1_apply {α : Type} (X : S2x8388608.Idx → α) (hs : S2x8388608.Slices ![1, 0] S1x8388608)
    (hc : S1x8388608.ShapeCasts S8388608) (p : Fin 8388608) :
    shapeCast S8388608 (extractStridedSlice S1x8388608 ![1, 0] X hs) hc (ix1 p) = X (ix2 (1 : Fin 2) p) := by
  refine (shapeCast_apply _ hc (ix1 p) (ix2 (0 : Fin 1) p) ?_).trans ?_
  · rw [Shape.rowMajor_val_two, Shape.rowMajor_val_one]
    show 0 * 8388608 + p.val = p.val
    omega
  · refine extractStridedSlice_apply _ X hs (ix2 (0 : Fin 1) p) (ix2 (1 : Fin 2) p) (fun a => ?_)
    match a with
    | ⟨0, _⟩ => rfl
    | ⟨1, _⟩ => exact (Nat.zero_add _).symm

/-- The element table flattened row by row, at position m: row m / 64, column m % 64. -/
theorem flat_apply (E : IVec S2048x64 32) (hc : S2048x64.ShapeCasts S131072) (m : Fin 131072) (n : BitVec 32)
    (hm : m.val = n.toNat) : shapeCast S131072 E hc (ix1 m) = Repulsion.elemAt E n := by
  unfold Repulsion.elemAt
  refine shapeCast_apply E hc (ix1 m) _ ?_
  rw [Shape.rowMajor_val_two, Shape.rowMajor_val_one]
  show (n.toNat / 64 % 2048) * 64 + n.toNat % 64 = m.val
  have := m.isLt
  omega

/-- A [P] array as a [P, 1] column, at (p, 0). -/
theorem col_apply {α : Type} (v : S8388608.Idx → α) (hb : S8388608.BroadcastsInDim S8388608x1 (![0] : Fin 1 → Fin S8388608x1.rank))
    (p : Fin 8388608) : broadcastInDim S8388608x1 ![0] hb v (ix2 p (0 : Fin 1)) = v (ix1 p) := by
  refine broadcastInDim_apply _ hb v _ (ix1 p) (fun a => ?_)
  obtain rfl : a = 0 := Subsingleton.elim _ _
  show p.val = if (8388608 : Nat) = 1 then 0 else p.val
  rw [if_neg (by decide)]

/-- Two [P, 1] columns side by side, at (p, 0): the first column. -/
theorem pair_left {α : Type} (x₁ x₂ : S8388608x1.Idx → α)
    (h : Shape.Concatenates [S8388608x1, S8388608x1] S8388608x2 1) (p : Fin 8388608) :
    concatenate S8388608x2 1 [⟨S8388608x1, x₁⟩, ⟨S8388608x1, x₂⟩] h (ix2 p (0 : Fin 2)) = x₁ (ix2 p (0 : Fin 1)) := by
  refine concatenate_pair_apply_left 1 x₁ x₂ h _ rfl _ (fun b => ?_)
  match b with
  | ⟨0, _⟩ => rfl
  | ⟨1, _⟩ => rfl

/-- Two [P, 1] columns side by side, at (p, 1): the second column. -/
theorem pair_right {α : Type} (x₁ x₂ : S8388608x1.Idx → α)
    (h : Shape.Concatenates [S8388608x1, S8388608x1] S8388608x2 1) (p : Fin 8388608) :
    concatenate S8388608x2 1 [⟨S8388608x1, x₁⟩, ⟨S8388608x1, x₂⟩] h (ix2 p (1 : Fin 2)) = x₂ (ix2 p (0 : Fin 1)) := by
  refine concatenate_pair_apply_right 1 x₁ x₂ h _ rfl rfl _ (fun b hb => ?_) rfl
  match b, hb with
  | ⟨0, _⟩, _ => rfl
  | ⟨1, _⟩, hb => exact absurd rfl hb

/-! ## The species of the two atoms of a pair -/

/-- The first gather reads the flattened element table at the atom number: the start index is in range, so the
    clamp into [0, 131071] keeps it. -/
theorem species_apply (E : IVec S2048x64 32) (N : IVec S2x8388608 32) (hN : ∀ i, (N i).toNat < 131072)
    (a : Fin 2) (p : Fin 8388608) :
    Stages.species E N (ix2 a p) = Repulsion.elemAt E (N (ix2 a p)) := by
  have hidx : broadcastInDim S2x8388608x1 ![0, 1] bcast_S2x8388608_S2x8388608x1_0_1 (Stages.atoms N) (takeIdx (ix2 a p))
      = N (ix2 a p) := by
    refine (broadcastInDim_apply _ _ (Stages.atoms N) _ (ix2 a p) (fun b => ?_)).trans (atoms_apply N hN _)
    match b with
    | ⟨0, _⟩ => rfl
    | ⟨1, _⟩ => rfl
  show Host.gather (takeDims 131072 2 8388608 gather_S131072_S2x8388608x1_S2x8388608_n_0_n_n_0_2_1_wf)
      (shapeCast S131072 E shapeCasts_S2048x64_S131072)
      (broadcastInDim S2x8388608x1 ![0, 1] bcast_S2x8388608_S2x8388608x1_0_1 (Stages.atoms N)) (ix2 a p) = _
  rw [gather_take_apply (by decide)]
  refine flat_apply E _ _ _ ?_
  show min (broadcastInDim S2x8388608x1 ![0, 1] bcast_S2x8388608_S2x8388608x1_0_1 (Stages.atoms N)
      (takeIdx (ix2 a p))).toInt.toNat (131072 - 1) = _
  rw [hidx, toInt_toNat_small _ (by have := hN (ix2 a p); omega)]
  have := hN (ix2 a p)
  omega

theorem elemAt_lt (E : IVec S2048x64 32) (hE : ∀ i, (E i).toNat < 4) (n : BitVec 32) :
    (Repulsion.elemAt E n).toNat < 4 := by
  unfold Repulsion.elemAt
  exact hE _

theorem sp0_apply (E : IVec S2048x64 32) (N : IVec S2x8388608 32) (hN : ∀ i, (N i).toNat < 131072) (p : Fin 8388608) :
    Stages.sp0 E N (ix1 p) = Repulsion.elemAt E (Repulsion.atom0 N p) := by
  unfold Stages.sp0 Repulsion.atom0
  rw [row0_apply, species_apply E N hN]

theorem sp1_apply (E : IVec S2048x64 32) (N : IVec S2x8388608 32) (hN : ∀ i, (N i).toNat < 131072) (p : Fin 8388608) :
    Stages.sp1 E N (ix1 p) = Repulsion.elemAt E (Repulsion.atom1 N p) := by
  unfold Stages.sp1 Repulsion.atom1
  rw [row1_apply, species_apply E N hN]

/-- The pair of species codes of pair p: the wrap of a negative code never acts on a code below 4. -/
theorem pairIdx_apply0 (E : IVec S2048x64 32) (N : IVec S2x8388608 32) (hE : ∀ i, (E i).toNat < 4)
    (hN : ∀ i, (N i).toNat < 131072) (p : Fin 8388608) :
    Stages.pairIdx E N (ix2 p (0 : Fin 2)) = Repulsion.elemAt E (Repulsion.atom0 N p) := by
  unfold Stages.pairIdx
  rw [pair_left, col_apply, wrap4_apply _ _ (by rw [sp0_apply E N hN]; exact elemAt_lt E hE _), sp0_apply E N hN]

theorem pairIdx_apply1 (E : IVec S2048x64 32) (N : IVec S2x8388608 32) (hE : ∀ i, (E i).toNat < 4)
    (hN : ∀ i, (N i).toNat < 131072) (p : Fin 8388608) :
    Stages.pairIdx E N (ix2 p (1 : Fin 2)) = Repulsion.elemAt E (Repulsion.atom1 N p) := by
  unfold Stages.pairIdx
  rw [pair_right, col_apply, wrap4_apply _ _ (by rw [sp1_apply E N hN]; exact elemAt_lt E hE _), sp1_apply E N hN]

/-! ## The second gather: a 4 x 4 table read at a pair of start indices -/

/-- Operand [4, 4], start indices [P, 2] (the index vector along axis 1), both operand axes collapsed and both in the
    start index map, slices of one element: the result at p is the table at the two start indices of row p, each
    read signed and clamped into [0, 3]. -/
theorem gather44_apply {α : Type} (T : S4x4.Idx → α) (idx : IVec S8388608x2 32) (p : Fin 8388608) :
    Host.gather gather_S4x4_S8388608x2_S8388608_n_01_n_n_01_1_11 T idx (ix1 p)
      = T (ix2 ⟨min (idx (ix2 p (0 : Fin 2))).toInt.toNat 3, by omega⟩
            ⟨min (idx (ix2 p (1 : Fin 2))).toInt.toNat 3, by omega⟩) := by
  unfold Host.gather
  congr 1
  funext a
  refine Fin.ext ?_
  match a with
  | ⟨0, _⟩ =>
    show gather_S4x4_S8388608x2_S8388608_n_01_n_n_01_1_11.start (ix1 p) idx 0
        + gather_S4x4_S8388608x2_S8388608_n_01_n_n_01_1_11.batchCoord (ix1 p) 0
        + gather_S4x4_S8388608x2_S8388608_n_01_n_n_01_1_11.offCoord (ix1 p) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S4x4_S8388608x2_S8388608_n_01_n_n_01_1_11.startIndexMap from by decide)]
    have hsi : gather_S4x4_S8388608x2_S8388608_n_01_n_n_01_1_11.siIdx (ix1 p)
        ⟨List.idxOf (0 : Fin 2) gather_S4x4_S8388608x2_S8388608_n_01_n_n_01_1_11.startIndexMap,
          List.idxOf_lt_length_iff.2 (by decide)⟩ = ix2 p (0 : Fin 2) := by
      funext b; refine Fin.ext ?_
      match b with
      | ⟨0, _⟩ => rfl
      | ⟨1, _⟩ => rfl
    rw [hsi]
    rfl
  | ⟨1, _⟩ =>
    show gather_S4x4_S8388608x2_S8388608_n_01_n_n_01_1_11.start (ix1 p) idx 1
        + gather_S4x4_S8388608x2_S8388608_n_01_n_n_01_1_11.batchCoord (ix1 p) 1
        + gather_S4x4_S8388608x2_S8388608_n_01_n_n_01_1_11.offCoord (ix1 p) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S4x4_S8388608x2_S8388608_n_01_n_n_01_1_11.startIndexMap from by decide)]
    have hsi : gather_S4x4_S8388608x2_S8388608_n_01_n_n_01_1_11.siIdx (ix1 p)
        ⟨List.idxOf (1 : Fin 2) gather_S4x4_S8388608x2_S8388608_n_01_n_n_01_1_11.startIndexMap,
          List.idxOf_lt_length_iff.2 (by decide)⟩ = ix2 p (1 : Fin 2) := by
      funext b; refine Fin.ext ?_
      match b with
      | ⟨0, _⟩ => rfl
      | ⟨1, _⟩ => rfl
    rw [hsi]
    rfl

/-- A start index below 4, read signed and clamped into [0, 3], is itself, and is its own remainder by 4. -/
theorem clamp3 (a : BitVec 32) (ha : a.toNat < 4) : min a.toInt.toNat 3 = a.toNat % 4 := by
  rw [toInt_toNat_small a (by omega)]
  omega

/-- A parameter table read at the species of the two atoms of pair p. -/
theorem tab_apply (T : FVec Ideal S4x4 .f32) (E : IVec S2048x64 32) (N : IVec S2x8388608 32)
    (hE : ∀ i, (E i).toNat < 4) (hN : ∀ i, (N i).toNat < 131072) (p : Fin 8388608) :
    Stages.tab T E N (ix1 p)
      = Repulsion.tabAt T (Repulsion.elemAt E (Repulsion.atom0 N p)) (Repulsion.elemAt E (Repulsion.atom1 N p)) := by
  unfold Stages.tab Repulsion.tabAt
  rw [gather44_apply]
  refine congrArg T (funext fun c => Fin.ext ?_)
  match c with
  | ⟨0, _⟩ =>
    show min (Stages.pairIdx E N (ix2 p (0 : Fin 2))).toInt.toNat 3 = (Repulsion.elemAt E (Repulsion.atom0 N p)).toNat % 4
    rw [pairIdx_apply0 E N hE hN]
    exact clamp3 _ (elemAt_lt E hE _)
  | ⟨1, _⟩ =>
    show min (Stages.pairIdx E N (ix2 p (1 : Fin 2))).toInt.toNat 3 = (Repulsion.elemAt E (Repulsion.atom1 N p)).toNat % 4
    rw [pairIdx_apply1 E N hE hN]
    exact clamp3 _ (elemAt_lt E hE _)

/-! ## The pair energies -/

/-- Every pair's energy, as the stages compute it, is the specification's. -/
theorem rep_eq (E : IVec S2048x64 32) (N : IVec S2x8388608 32) (D : FVec Ideal S8388608 .f32) (Y A K : FVec Ideal S4x4 .f32)
    (h : Repulsion.Dom E N D K) :
    Stages.rep (F := Ideal) E N D Y A K = Repulsion.repArr E N D Y A K := by
  funext i
  obtain ⟨p, rfl⟩ : ∃ p : Fin 8388608, i = ix1 p := ⟨i 0, eq_ix1 i⟩
  have e : Stages.rep (F := Ideal) E N D Y A K (ix1 p)
      = Repulsion.repPow (Stages.tab Y E N (ix1 p)) (Stages.tab A E N (ix1 p)) (Stages.tab K E N (ix1 p))
          (Stages.dist D (ix1 p)) := rfl
  rw [e, tab_apply Y E N h.elem h.atom, tab_apply A E N h.elem h.atom, tab_apply K E N h.elem h.atom, dist_apply]
  rfl

/-! ## The molecules: floor division of a small non-negative word by 64 -/

/-- The sign of a word as a word: 0, -1 or 1. -/
def sgn (x : BitVec 32) : BitVec 32 := if x = 0 then 0 else if x.msb then -1 else 1

/-- Floor division by 64 as the program spells it: the truncated quotient, less one where the signs of dividend and
    divisor differ and the remainder is not zero. -/
def floorDiv64 (n : BitVec 32) : BitVec 32 :=
  Scalar.select
    (IntOp.andi (IntOp.cmpi .ne (sgn n) (sgn 64#32)) (IntOp.cmpi .ne (IntOp.remsi .host n 64#32) 0#32))
    (IntOp.subi (IntOp.divsi .host n 64#32) 1#32)
    (IntOp.divsi .host n 64#32)

/-- On a word below 131072 the correction never acts (zero has remainder zero, a positive word has the divisor's
    sign), the division meets no corner, and the signed quotient of two non-negative words is the unsigned one. -/
theorem floorDiv64_eq (n : BitVec 32) (h : n.toNat < 131072) : floorDiv64 n = BitVec.ofNat 32 (n.toNat / 64) := by
  have hm : n.msb = false := BitVec.msb_eq_false_iff_two_mul_lt.mpr (by omega)
  have hm64 : (64#32 : BitVec 32).msb = false := by decide
  have hc : ¬ IntOp.SDivCorner n 64#32 := by
    intro hc
    rcases hc with hc | ⟨_, hc⟩ <;> exact absurd hc (by decide)
  have hdiv : IntOp.divsi .host n 64#32 = n / 64#32 := by
    simp only [IntOp.divsi, if_neg hc, BitVec.sdiv_eq, hm, hm64, BitVec.udiv_eq]
  have hrem : IntOp.remsi .host n 64#32 = n % 64#32 := by
    simp only [IntOp.remsi, if_neg hc, BitVec.srem_eq, hm, hm64, BitVec.umod_eq]
  have hcond : IntOp.andi (IntOp.cmpi .ne (sgn n) (sgn 64#32)) (IntOp.cmpi .ne (IntOp.remsi .host n 64#32) 0#32) = 0#1 := by
    rw [hrem]
    by_cases h0 : n = 0
    · subst h0
      decide
    · have e1 : sgn n = 1 := by unfold sgn; rw [if_neg h0, hm]; rfl
      have e2 : sgn 64#32 = 1 := by decide
      have e3 : IntOp.cmpi .ne (1 : BitVec 32) 1 = 0#1 := by decide
      rw [e1, e2, e3]
      unfold IntOp.andi
      exact BitVec.zero_and
  unfold floorDiv64
  rw [hcond, select_zero, hdiv]
  apply BitVec.eq_of_toNat_eq
  simp only [BitVec.toNat_udiv, BitVec.toNat_ofNat, Nat.reducePow, Nat.reduceMod]
  omega

/-- The first row of the pair list, at p. -/
theorem first_apply (N : IVec S2x8388608 32) (p : Fin 8388608) : Stages.first N (ix1 p) = N (ix2 (0 : Fin 2) p) := by
  unfold Stages.first
  rw [row0_apply]

/-- Every pair's molecule, as the stages compute it, is the specification's. -/
theorem mol_eq (N : IVec S2x8388608 32) (hN : ∀ i, (N i).toNat < 131072) :
    Stages.mol N = Repulsion.molArr N := by
  funext i
  obtain ⟨p, rfl⟩ : ∃ p : Fin 8388608, i = ix1 p := ⟨i 0, eq_ix1 i⟩
  have e : Stages.mol N (ix1 p) = floorDiv64 (Stages.first N (ix1 p)) := rfl
  rw [e, first_apply, floorDiv64_eq _ (hN _)]
  rfl

end Cert.ReferenceIdeal.RefValue

end
-- ==== Proof.PreDom.lean ====
/-
  The precondition decoded: where the printed predicate is all ones, every species code lies in 0 … 3, every atom
  number in 0 … 131071, and every distance and every exponent is a real number.
-/
import proofs.«402865_j56143812494147_3_alg».proof.Pre_finite_inputs
import proofs.«402865_j56143812494147_3_alg».proof.Proof.Gen.Pre_finite_inputs
import proofs.«402865_j56143812494147_3_alg».proof.Proof.Spec
import Idealize.ShloMosaic.Lib.ReduceAll
import Idealize.ShloMosaic.Lib.ValueIdx
import Idealize.ShloMosaic.Lib.StableHlo.Predicate

noncomputable section

namespace Cert.PreDom

open Idealize.ShloMosaic Idealize.ShloMosaic.ValueIdx Cert.Pre_finite_inputs

/-- The rank-0 shape has exactly one index. -/
instance : Subsingleton S_.Idx := ⟨fun a b => funext fun d => d.elim0⟩

/-- The f32 pattern with all exponent bits set and no fraction bit is plus infinity. -/
theorem inf_bits : Ideal.ofBits .f32 0x7F800000#32 = (⊤ : EReal) := by
  simp [Ideal.ofBits, Ideal.ieee]

/-- An extended real whose absolute value lies strictly below plus infinity is a real number. -/
theorem real_of_abs_lt (x : EReal)
    (h : Ideal.cmp .olt (max x (-x)) (Ideal.ofBits .f32 0x7F800000#32) = 1#1) : ∃ r : ℝ, x = (r : EReal) := by
  rw [inf_bits] at h
  simp only [Ideal.cmp, StableHlo.Predicate.ofBool_eq_one_iff, decide_eq_true_eq] at h
  induction x using EReal.rec with
  | bot => simp at h
  | coe r => exact ⟨r, rfl⟩
  | top => simp at h

/-- A 32-bit word that is at least 0 as a signed number and signed-below a small bound `c` is, read unsigned,
    below `c`: a non-negative signed word has its top bit clear, so both readings agree. -/
theorem toNat_lt_of_signed (w c : BitVec 32) (hc : c.toNat < 2 ^ 31)
    (h0 : IntOp.cmpi .sge w 0#32 = 1#1) (h1 : IntOp.cmpi .slt w c = 1#1) : w.toNat < c.toNat := by
  have hw : w.toNat < 2 ^ 31 := by
    simp only [IntOp.cmpi, StableHlo.Predicate.ofBool_eq_one_iff, BitVec.sle, decide_eq_true_eq] at h0
    have h00 : (0#32 : BitVec 32).toInt = 0 := by decide
    rw [h00, BitVec.toInt_eq_msb_cond] at h0
    by_contra hge
    have hm : w.msb = true := by
      rw [BitVec.msb_eq_decide]; simp; omega
    rw [hm] at h0
    simp at h0
    have := w.isLt
    omega
  exact (StableHlo.Predicate.slt_iff_toNat hw hc).1 h1

theorem dom_of_pre (E : IVec S2048x64 32) (N : IVec S2x8388608 32) (D : FVec Ideal S8388608 .f32) (Y A K : FVec Ideal S4x4 .f32)
    (h : Cert.Pre_finite_inputs.fn (F := Ideal) E N D Y A K = (fun _ => 1#1)) :
    Repulsion.Dom E N D K := by
  have h0 := congrFun h ValueIdx.ix0
  unfold Cert.Pre_finite_inputs.fn Cert.Pre_finite_inputs.fn_part1 Cert.Pre_finite_inputs.fn_part2 at h0
  dsimp only at h0
  -- the eight conjuncts of the chain of ands, the last one outermost
  obtain ⟨h1, hN1⟩ := IntOp.andi_eq_one.1 h0
  obtain ⟨h2, hN0⟩ := IntOp.andi_eq_one.1 h1
  obtain ⟨h3, hE4⟩ := IntOp.andi_eq_one.1 h2
  obtain ⟨h4, hE0⟩ := IntOp.andi_eq_one.1 h3
  obtain ⟨h5, hK⟩ := IntOp.andi_eq_one.1 h4
  obtain ⟨h6, _⟩ := IntOp.andi_eq_one.1 h5
  obtain ⟨hD, _⟩ := IntOp.andi_eq_one.1 h6
  refine ⟨fun i => ?_, fun i => ?_, fun i => ?_, fun i => ?_⟩
  · -- a species code is at least 0 and below 4 as a signed word
    have a0 := Host.reduce_andi_all _ _ _ _ _ hE0 i
    have a4 := Host.reduce_andi_all _ _ _ _ _ hE4 i
    have hlt := toNat_lt_of_signed (E i) 4#32 (by decide) a0 a4
    first | exact hlt | simpa using hlt
  · -- an atom number is at least 0 and below 131072 as a signed word
    have a0 := Host.reduce_andi_all _ _ _ _ _ hN0 i
    have a1 := Host.reduce_andi_all _ _ _ _ _ hN1 i
    have hlt := toNat_lt_of_signed (N i) 131072#32 (by decide) a0 a1
    first | exact hlt | simpa using hlt
  · -- a distance has absolute value below plus infinity
    have a := Host.reduce_andi_all _ _ _ _ _ hD i
    exact real_of_abs_lt (D i) a
  · -- so has an exponent
    have a := Host.reduce_andi_all _ _ _ _ _ hK i
    exact real_of_abs_lt (K i) a

end Cert.PreDom

end
-- ==== Proof.lean ====
/-
  Pair-repulsion energies summed into molecules: a pipelined kernel against a direct host program.

  Both programs take an element table E[2048, 64], a pair list N[2, P] of flat atom numbers, pair distances D[P] and
  three 4 x 4 species-pair tables.  The kernel's program gathers the two species of every pair on the host (jnp.take),
  packs them into one code 4 s0 + s1, and its region computes, 262144 pairs at a time, every pair's energy
  (y / d) exp(-a exp(k log d)) cut(d) — its three parameters picked from the tables by a sixteen-way chain of selects on
  the code — and the pair's molecule N[0, p] / 64; the host then adds every energy into its molecule.  The direct program
  gathers the species by array indexing, gathers the parameters from the tables at (s0, s1), computes
  (y / d) exp(-a d^k) cut(d) and the same sum.

  On the precondition's domain — species codes in 0 … 3, atom numbers in 0 … 131071, finite distances and exponents —
  index wrapping, fill values and clamps never act, the code picks the table entry at (s0, s1), the clamped scaled
  distance is a positive real so that d^k = exp(k log d), and an atom number's floor division by 64 is its plain
  quotient.  So both programs hand the same energies and the same molecules to the same sum, whatever its order.
-/
import proofs.«402865_j56143812494147_3_alg».proof.Defs
import proofs.«402865_j56143812494147_3_alg».proof.Proof.Gen.Kernel
import proofs.«402865_j56143812494147_3_alg».proof.Proof.Gen.Kernel.Skeleton
import proofs.«402865_j56143812494147_3_alg».proof.Proof.Gen.Kernel.Launch
import proofs.«402865_j56143812494147_3_alg».proof.Proof.Gen.Kernel.Points
import proofs.«402865_j56143812494147_3_alg».proof.Proof.Gen.Kernel.Frame
import proofs.«402865_j56143812494147_3_alg».proof.Proof.Gen.KernelIdeal
import proofs.«402865_j56143812494147_3_alg».proof.Proof.Gen.KernelIdeal.Skeleton
import proofs.«402865_j56143812494147_3_alg».proof.Proof.Gen.KernelIdeal.Launch
import proofs.«402865_j56143812494147_3_alg».proof.Proof.Gen.KernelIdeal.Points
import proofs.«402865_j56143812494147_3_alg».proof.Proof.Gen.KernelIdeal.Frame
import proofs.«402865_j56143812494147_3_alg».proof.Proof.Gen.ReferenceIdeal
import proofs.«402865_j56143812494147_3_alg».proof.Proof.Gen.Pre_finite_inputs
import proofs.«402865_j56143812494147_3_alg».proof.Proof.KerRun
import proofs.«402865_j56143812494147_3_alg».proof.Proof.Bridge
import proofs.«402865_j56143812494147_3_alg».proof.Proof.RefRun
import proofs.«402865_j56143812494147_3_alg».proof.Proof.RefValue
import proofs.«402865_j56143812494147_3_alg».proof.Proof.PreDom
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The direct program's frame is its run with the result dropped. -/
theorem frame_reference : Cert.frame_ReferenceIdeal := fun m ρ _ =>
  (θ_run Cert.ReferenceIdeal.defs _ _).mono (fun _ h c => (h c).2)
    (Cert.ReferenceIdeal.RefRun.run_out (F := Ideal) m ρ)

/-- On the domain the direct program's result term is the kernel program's: the same sum of the same energies into
    the same molecules. -/
theorem result_eq (m : (ℓ : Loc Cert.KernelIdeal.nD Cert.KernelIdeal.τ Cert.KernelIdeal.sig) → Buf (Elt Ideal) ℓ)
    (c : Dev Cert.KernelIdeal.nD)
    (h : Repulsion.Dom (Cert.KernelIdeal.Bridge.aE m c) (Cert.KernelIdeal.Bridge.aN m c) (Cert.KernelIdeal.Bridge.aD m c)
      (Cert.KernelIdeal.Bridge.aK m c)) :
    Cert.ReferenceIdeal.Stages.out (F := Ideal) (Cert.KernelIdeal.Bridge.aE m c) (Cert.KernelIdeal.Bridge.aN m c)
        (Cert.KernelIdeal.Bridge.aD m c) (Cert.KernelIdeal.Bridge.aY m c) (Cert.KernelIdeal.Bridge.aA m c)
        (Cert.KernelIdeal.Bridge.aK m c)
      = Cert.KernelIdeal.Run.kerOut m c := by
  unfold Cert.ReferenceIdeal.Stages.out Cert.KernelIdeal.Run.kerOut
  rw [Cert.ReferenceIdeal.RefValue.rep_eq _ _ _ _ _ _ h, Cert.ReferenceIdeal.RefValue.mol_eq _ h.atom,
    Cert.KernelIdeal.Bridge.rep_flat m c h, Cert.KernelIdeal.Bridge.mol_flat m c]
  rfl

theorem algebraic : Cert.algebraic_KernelIdeal_ReferenceIdeal := by
  intro m ρ m' ρ' hpre hagree
  have hdom : ∀ c, Repulsion.Dom (Cert.KernelIdeal.Bridge.aE m c) (Cert.KernelIdeal.Bridge.aN m c)
      (Cert.KernelIdeal.Bridge.aD m c) (Cert.KernelIdeal.Bridge.aK m c) :=
    fun c => Cert.PreDom.dom_of_pre _ _ _ _ _ _ (hpre c)
  refine ⟨fun c => Cert.KernelIdeal.Run.kerOut m c,
    Cert.KernelIdeal.Run.run_value m ρ (fun c i => Cert.KernelIdeal.Bridge.atoms_lt m c (hdom c) i), ?_⟩
  refine (θ_run Cert.ReferenceIdeal.defs _ _).mono (fun _ h c => ⟨(h c).1.trans ?_, (h c).2⟩)
    (Cert.ReferenceIdeal.RefRun.run_out (F := Ideal) m' ρ')
  obtain ⟨e0, e1, e2, e3, e4, e5⟩ := hagree c
  rw [e0, e1, e2, e3, e4, e5]
  exact result_eq m c (hdom c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
